-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S32x512x33 : Shape := ⟨3, ![32, 512, 33]⟩
abbrev S32x1024x33 : Shape := ⟨3, ![32, 1024, 33]⟩
abbrev S32768x33 : Shape := ⟨2, ![32768, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S4096x33 : Shape := ⟨2, ![4096, 33]⟩
abbrev S2048x128 : Shape := ⟨2, ![2048, 128]⟩
abbrev S1024x33 : Shape := ⟨2, ![1024, 33]⟩
abbrev S33x512 : Shape := ⟨2, ![33, 512]⟩
abbrev S1024x512 : Shape := ⟨2, ![1024, 512]⟩
abbrev S512x32 : Shape := ⟨2, ![512, 32]⟩
abbrev S1024x32 : Shape := ⟨2, ![1024, 32]⟩
abbrev S512x1 : Shape := ⟨2, ![512, 1]⟩
abbrev S512x65 : Shape := ⟨2, ![512, 65]⟩
abbrev S65x512 : Shape := ⟨2, ![65, 512]⟩
abbrev S512x512 : Shape := ⟨2, ![512, 512]⟩
abbrev S512x128 : Shape := ⟨2, ![512, 128]⟩

abbrev nBuf : Space → Nat
  | .hbm => 31
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S32x512x33, .bf16⟩
  | .hbm, ⟨17, _⟩ => ⟨S32x512x33, .bf16⟩
  | .hbm, ⟨18, _⟩ => ⟨S32x1024x33, .bf16⟩
  | .hbm, ⟨19, _⟩ => ⟨S32768x33, .bf16⟩
  | .hbm, ⟨20, _⟩ => ⟨S1x4096, .f32⟩
  | .hbm, ⟨21, _⟩ => ⟨S33x4096, .f32⟩
  | .hbm, ⟨22, _⟩ => ⟨S33x4096, .bf16⟩
  | .hbm, ⟨23, _⟩ => ⟨S1x4096, .f32⟩
  | .hbm, ⟨24, _⟩ => ⟨S65x4096, .f32⟩
  | .hbm, ⟨25, _⟩ => ⟨S65x4096, .bf16⟩
  | .hbm, ⟨26, _⟩ => ⟨S4096x32, .bf16⟩
  | .hbm, ⟨27, _⟩ => ⟨S1x32, .f32⟩
  | .hbm, ⟨28, _⟩ => ⟨S4096x128, .bf16⟩
  | .hbm, ⟨29, _⟩ => ⟨S1x128, .f32⟩
  | .hbm, ⟨30, _⟩ => ⟨S16384x128, .f32⟩
  | .local _ .vmem, ⟨0, _⟩ => ⟨S4096x33, .bf16⟩
  | .local _ .vmem, ⟨1, _⟩ => ⟨S4096x33, .bf16⟩
  | .local _ .vmem, ⟨2, _⟩ => ⟨S33x4096, .bf16⟩
  | .local _ .vmem, ⟨3, _⟩ => ⟨S4096x32, .bf16⟩
  | .local _ .vmem, ⟨4, _⟩ => ⟨S1x32, .f32⟩
  | .local _ .vmem, ⟨5, _⟩ => ⟨S65x4096, .bf16⟩
  | .local _ .vmem, ⟨6, _⟩ => ⟨S4096x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  shapeCasts_S16384x33_S32x512x33 : S16384x33.ShapeCasts S32x512x33
  concatenates_S32x512x33_S32x512x33_S32x1024x33_d1 : Shape.Concatenates [S32x512x33, S32x512x33] S32x1024x33 1
  shapeCasts_S32x1024x33_S32768x33 : S32x1024x33.ShapeCasts S32768x33
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S4096x33_S1024x33_0_0 : ∀ a, (![0, 0] : Fin 2 → Nat) a + S1024x33.size a ≤ S4096x33.size a
  h_S1024x33 : 0 < S1024x33.numel
  shapeCasts_S1024x33_S1024x33 : S1024x33.ShapeCasts S1024x33
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x512_0_0 : ∀ a, (![0, 0] : Fin 2 → Nat) a + S33x512.size a ≤ S33x4096.size a
  h_S33x512 : 0 < S33x512.numel
  shapeCasts_S33x512_S33x512 : S33x512.ShapeCasts S33x512
  inb_S4096x32_S512x32_0_0 : ∀ a, (![0, 0] : Fin 2 → Nat) a + S512x32.size a ≤ S4096x32.size a
  h_S512x32 : 0 < S512x32.numel
  shapeCasts_S512x32_S512x32 : S512x32.ShapeCasts S512x32
  broadcasts_S1x32_S1024x32 : S1x32.Broadcasts S1024x32
  inb_S33x4096_S33x512_0_512 : ∀ a, (![0, 512] : Fin 2 → Nat) a + S33x512.size a ≤ S33x4096.size a
  inb_S4096x32_S512x32_512_0 : ∀ a, (![512, 0] : Fin 2 → Nat) a + S512x32.size a ≤ S4096x32.size a
  inb_S33x4096_S33x512_0_1024 : ∀ a, (![0, 1024] : Fin 2 → Nat) a + S33x512.size a ≤ S33x4096.size a
  inb_S4096x32_S512x32_1024_0 : ∀ a, (![1024, 0] : Fin 2 → Nat) a + S512x32.size a ≤ S4096x32.size a
  inb_S33x4096_S33x512_0_1536 : ∀ a, (![0, 1536] : Fin 2 → Nat) a + S33x512.size a ≤ S33x4096.size a
  inb_S4096x32_S512x32_1536_0 : ∀ a, (![1536, 0] : Fin 2 → Nat) a + S512x32.size a ≤ S4096x32.size a
  inb_S33x4096_S33x512_0_2048 : ∀ a, (![0, 2048] : Fin 2 → Nat) a + S33x512.size a ≤ S33x4096.size a
  inb_S4096x32_S512x32_2048_0 : ∀ a, (![2048, 0] : Fin 2 → Nat) a + S512x32.size a ≤ S4096x32.size a
  inb_S33x4096_S33x512_0_2560 : ∀ a, (![0, 2560] : Fin 2 → Nat) a + S33x512.size a ≤ S33x4096.size a
  inb_S4096x32_S512x32_2560_0 : ∀ a, (![2560, 0] : Fin 2 → Nat) a + S512x32.size a ≤ S4096x32.size a
  inb_S33x4096_S33x512_0_3072 : ∀ a, (![0, 3072] : Fin 2 → Nat) a + S33x512.size a ≤ S33x4096.size a
  inb_S4096x32_S512x32_3072_0 : ∀ a, (![3072, 0] : Fin 2 → Nat) a + S512x32.size a ≤ S4096x32.size a
  inb_S33x4096_S33x512_0_3584 : ∀ a, (![0, 3584] : Fin 2 → Nat) a + S33x512.size a ≤ S33x4096.size a
  inb_S4096x32_S512x32_3584_0 : ∀ a, (![3584, 0] : Fin 2 → Nat) a + S512x32.size a ≤ S4096x32.size a
  slices_S1024x32_o0_0_S512x32 : S1024x32.Slices ![0, 0] S512x32
  slices_S1024x32_o512_0_S512x32 : S1024x32.Slices ![512, 0] S512x32
  concatenates_S512x32_S512x32_S512x1_S512x65_d1 : Shape.Concatenates [S512x32, S512x32, S512x1] S512x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x512_0_0 : ∀ a, (![0, 0] : Fin 2 → Nat) a + S65x512.size a ≤ S65x4096.size a
  h_S65x512 : 0 < S65x512.numel
  shapeCasts_S65x512_S65x512 : S65x512.ShapeCasts S65x512
  inb_S4096x128_S512x128_0_0 : ∀ a, (![0, 0] : Fin 2 → Nat) a + S512x128.size a ≤ S4096x128.size a
  h_S512x128 : 0 < S512x128.numel
  shapeCasts_S512x128_S512x128 : S512x128.ShapeCasts S512x128
  broadcasts_S1x128_S512x128 : S1x128.Broadcasts S512x128
  inb_S65x4096_S65x512_0_512 : ∀ a, (![0, 512] : Fin 2 → Nat) a + S65x512.size a ≤ S65x4096.size a
  inb_S4096x128_S512x128_512_0 : ∀ a, (![512, 0] : Fin 2 → Nat) a + S512x128.size a ≤ S4096x128.size a
  inb_S65x4096_S65x512_0_1024 : ∀ a, (![0, 1024] : Fin 2 → Nat) a + S65x512.size a ≤ S65x4096.size a
  inb_S4096x128_S512x128_1024_0 : ∀ a, (![1024, 0] : Fin 2 → Nat) a + S512x128.size a ≤ S4096x128.size a
  inb_S65x4096_S65x512_0_1536 : ∀ a, (![0, 1536] : Fin 2 → Nat) a + S65x512.size a ≤ S65x4096.size a
  inb_S4096x128_S512x128_1536_0 : ∀ a, (![1536, 0] : Fin 2 → Nat) a + S512x128.size a ≤ S4096x128.size a
  inb_S65x4096_S65x512_0_2048 : ∀ a, (![0, 2048] : Fin 2 → Nat) a + S65x512.size a ≤ S65x4096.size a
  inb_S4096x128_S512x128_2048_0 : ∀ a, (![2048, 0] : Fin 2 → Nat) a + S512x128.size a ≤ S4096x128.size a
  inb_S65x4096_S65x512_0_2560 : ∀ a, (![0, 2560] : Fin 2 → Nat) a + S65x512.size a ≤ S65x4096.size a
  inb_S4096x128_S512x128_2560_0 : ∀ a, (![2560, 0] : Fin 2 → Nat) a + S512x128.size a ≤ S4096x128.size a
  inb_S65x4096_S65x512_0_3072 : ∀ a, (![0, 3072] : Fin 2 → Nat) a + S65x512.size a ≤ S65x4096.size a
  inb_S4096x128_S512x128_3072_0 : ∀ a, (![3072, 0] : Fin 2 → Nat) a + S512x128.size a ≤ S4096x128.size a
  inb_S65x4096_S65x512_0_3584 : ∀ a, (![0, 3584] : Fin 2 → Nat) a + S65x512.size a ≤ S65x4096.size a
  inb_S4096x128_S512x128_3584_0 : ∀ a, (![3584, 0] : Fin 2 → Nat) a + S512x128.size a ≤ S4096x128.size a
  inb_S2048x128_S512x128_0_0 : ∀ a, (![0, 0] : Fin 2 → Nat) a + S512x128.size a ≤ S2048x128.size a
  inb_S4096x33_S1024x33_1024_0 : ∀ a, (![1024, 0] : Fin 2 → Nat) a + S1024x33.size a ≤ S4096x33.size a
  inb_S2048x128_S512x128_512_0 : ∀ a, (![512, 0] : Fin 2 → Nat) a + S512x128.size a ≤ S2048x128.size a
  inb_S4096x33_S1024x33_2048_0 : ∀ a, (![2048, 0] : Fin 2 → Nat) a + S1024x33.size a ≤ S4096x33.size a
  inb_S2048x128_S512x128_1024_0 : ∀ a, (![1024, 0] : Fin 2 → Nat) a + S512x128.size a ≤ S2048x128.size a
  inb_S4096x33_S1024x33_3072_0 : ∀ a, (![3072, 0] : Fin 2 → Nat) a + S1024x33.size a ≤ S4096x33.size a
  inb_S2048x128_S512x128_1536_0 : ∀ a, (![1536, 0] : Fin 2 → Nat) a + S512x128.size a ≤ S2048x128.size a
  dot_S1024x33_S33x512_S1024x512_1_0_0_1_n_n_wf : DotDims.WF S1024x33 S33x512 S1024x512 [1] [0] [0] [1] [] []
  dot_S1024x512_S512x32_S1024x32_1_0_0_1_n_n_wf : DotDims.WF S1024x512 S512x32 S1024x32 [1] [0] [0] [1] [] []
  dot_S512x65_S65x512_S512x512_1_0_0_1_n_n_wf : DotDims.WF S512x65 S65x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x33.size a ≤ S32768x33.size a
  hwx0_0 : ∀ i : grid0.Coords, EltTy.bits .bf16 = 32 ∨ (Rect.block (s := S32768x33) S4096x33.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x4096.size a ≤ S33x4096.size a
  hwx0_1 : ∀ i : grid0.Coords, EltTy.bits .bf16 = 32 ∨ (Rect.block (s := S33x4096) S33x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x4096.size a ≤ S65x4096.size a
  hwx0_4 : ∀ i : grid0.Coords, EltTy.bits .bf16 = 32 ∨ (Rect.block (s := S65x4096) S65x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .f32 = 32 ∨ (Rect.block (s := S16384x128) S2048x128.size (cc0_transform_7 i) (hinb0_7 i)).WholeWords (EltTy.packing .f32)

variable [Facts₀]

def dot_S1024x33_S33x512_S1024x512_1_0_0_1_n_n : DotDims S1024x33 S33x512 S1024x512 where
  lhsContracting := [1]
  rhsContracting := [0]
  lhsNonContracting := [0]
  rhsNonContracting := [1]
  lhsBatch := []
  rhsBatch := []
  wf := dot_S1024x33_S33x512_S1024x512_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S512x65_S65x512_S512x512_1_0_0_1_n_n : DotDims S512x65 S65x512 S512x512 where
  lhsContracting := [1]
  rhsContracting := [0]
  lhsNonContracting := [0]
  rhsNonContracting := [1]
  lhsBatch := []
  rhsBatch := []
  wf := dot_S512x65_S65x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v8) S4096x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S33x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S65x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.Stream.lean ====
/-
  One row-stream of the fused four-layer network, as a function of the blocks the body loads.
  A stream takes 1024 rows of the stacked input block (512 rows of the first branch, then the 512
  matching rows of the second), runs layers 1 and 2 on all of them (the hidden width 4096 visited in
  eight chunks of 512, the second layer's sum accumulated chunk by chunk onto the bias row), pairs
  row p with row 512 + p side by side with a trailing one, and runs layers 3 and 4 the same way.
-/
import proofs.«141145_g11802570129985_cont_fleet_79_16_alg».proof.Proof.Gen.KernelIdeal.Frame

noncomputable section

namespace Cert.KernelIdeal.Hand

open Cert.KernelIdeal Cert.KernelIdeal.Gen Idealize.ShloMosaic Idealize.SL.Sem

variable {F : FTy → Type} [FloatOps F]

/-- One chunk of the first hidden layer: relu of the rows times 512 columns of the augmented first weight. -/
def hid1 (x : FVec F S1024x33 .bf16) (w1 : Vec F S33x512 .bf16) : FVec F S1024x512 .bf16 :=
  maximumf (truncf .bf16 (matmul dot_S1024x33_S33x512_S1024x512_1_0_0_1_n_n none x (shapeCast S33x512 w1 shapeCasts_S33x512_S33x512) (constant S1024x512 .f32 0x00000000#32)) bitsLt_bf16_f32) (broadcast S1024x512 (Scalar.ofBits .bf16 0x0000#16))

/-- That chunk's contribution to the second layer's sum. -/
def term2 (x : FVec F S1024x33 .bf16) (w1 : Vec F S33x512 .bf16) (w2 : Vec F S512x32 .bf16) : FVec F S1024x32 .f32 :=
  matmul dot_S1024x512_S512x32_S1024x32_1_0_0_1_n_n none (hid1 x w1) (shapeCast S512x32 w2 shapeCasts_S512x32_S512x32) (constant S1024x32 .f32 0x00000000#32)

/-- Layers 1 and 2 on the 1024 loaded rows: relu of the bias row plus the eight chunk contributions, added in order. -/
def featK (xl : Vec F S1024x33 .bf16) (x1 : Vec F S33x4096 .bf16) (x2 : Vec F S4096x32 .bf16) (x3 : Vec F S1x32 .f32) : FVec F S1024x32 .f32 :=
  maximumf (addf (addf (addf (addf (addf (addf (addf (addf (broadcastTo S1024x32 (shapeCast S1x32 (View.ld x3 r0_1) shapeCasts_S1x32_S1x32) broadcasts_S1x32_S1024x32) (term2 (shapeCast S1024x33 xl shapeCasts_S1024x33_S1024x33) (View.ld x1 r0_2) (View.ld x2 r0_3))) (term2 (shapeCast S1024x33 xl shapeCasts_S1024x33_S1024x33) (View.ld x1 r0_4) (View.ld x2 r0_5))) (term2 (shapeCast S1024x33 xl shapeCasts_S1024x33_S1024x33) (View.ld x1 r0_6) (View.ld x2 r0_7))) (term2 (shapeCast S1024x33 xl shapeCasts_S1024x33_S1024x33) (View.ld x1 r0_8) (View.ld x2 r0_9))) (term2 (shapeCast S1024x33 xl shapeCasts_S1024x33_S1024x33) (View.ld x1 r0_10) (View.ld x2 r0_11))) (term2 (shapeCast S1024x33 xl shapeCasts_S1024x33_S1024x33) (View.ld x1 r0_12) (View.ld x2 r0_13))) (term2 (shapeCast S1024x33 xl shapeCasts_S1024x33_S1024x33) (View.ld x1 r0_14) (View.ld x2 r0_15))) (term2 (shapeCast S1024x33 xl shapeCasts_S1024x33_S1024x33) (View.ld x1 r0_16) (View.ld x2 r0_17))) (broadcast S1024x32 (Scalar.ofBits .f32 0x00000000#32))

/-- Row p of the first half beside row p of the second half beside a one. -/
def pairU (o : FVec F S1024x32 .f32) : FVec F S512x65 .bf16 :=
  truncf .bf16 (concatenate S512x65 1 [⟨S512x32, extractStridedSlice S512x32 ![0, 0] o slices_S1024x32_o0_0_S512x32⟩, ⟨S512x32, extractStridedSlice S512x32 ![512, 0] o slices_S1024x32_o512_0_S512x32⟩, ⟨S512x1, broadcast S512x1 (Scalar.ofBits .f32 0x3F800000#32)⟩] concatenates_S512x32_S512x32_S512x1_S512x65_d1) bitsLt_bf16_f32

/-- One chunk of the third layer: relu of the paired rows times 512 columns of the augmented third weight. -/
def hid3 (u : FVec F S512x65 .bf16) (w3 : Vec F S65x512 .bf16) : FVec F S512x512 .bf16 :=
  maximumf (truncf .bf16 (matmul dot_S512x65_S65x512_S512x512_1_0_0_1_n_n none u (shapeCast S65x512 w3 shapeCasts_S65x512_S65x512) (constant S512x512 .f32 0x00000000#32)) bitsLt_bf16_f32) (broadcast S512x512 (Scalar.ofBits .bf16 0x0000#16))

/-- That chunk's contribution to the last layer's sum. -/
def term4 (u : FVec F S512x65 .bf16) (w3 : Vec F S65x512 .bf16) (w4 : Vec F S512x128 .bf16) : FVec F S512x128 .f32 :=
  matmul dot_S512x512_S512x128_S512x128_1_0_0_1_n_n none (hid3 u w3) (shapeCast S512x128 w4 shapeCasts_S512x128_S512x128) (constant S512x128 .f32 0x00000000#32)

/-- Layers 3 and 4 on the 512 paired rows: the bias row plus the eight chunk contributions, added in order. -/
def headK (o : FVec F S1024x32 .f32) (x4 : Vec F S65x4096 .bf16) (x5 : Vec F S4096x128 .bf16) (x6 : Vec F S1x128 .f32) : FVec F S512x128 .f32 :=
  addf (addf (addf (addf (addf (addf (addf (addf (broadcastTo S512x128 (shapeCast S1x128 (View.ld x6 r0_18) shapeCasts_S1x128_S1x128) broadcasts_S1x128_S512x128) (term4 (pairU o) (View.ld x4 r0_19) (View.ld x5 r0_20))) (term4 (pairU o) (View.ld x4 r0_21) (View.ld x5 r0_22))) (term4 (pairU o) (View.ld x4 r0_23) (View.ld x5 r0_24))) (term4 (pairU o) (View.ld x4 r0_25) (View.ld x5 r0_26))) (term4 (pairU o) (View.ld x4 r0_27) (View.ld x5 r0_28))) (term4 (pairU o) (View.ld x4 r0_29) (View.ld x5 r0_30))) (term4 (pairU o) (View.ld x4 r0_31) (View.ld x5 r0_32))) (term4 (pairU o) (View.ld x4 r0_33) (View.ld x5 r0_34))

/-- A whole stream: what is stored for 512 output rows, from the 1024 loaded input rows and the resident weights. -/
def streamOf (xl : Vec F S1024x33 .bf16) (x1 : Vec F S33x4096 .bf16) (x2 : Vec F S4096x32 .bf16) (x3 : Vec F S1x32 .f32) (x4 : Vec F S65x4096 .bf16) (x5 : Vec F S4096x128 .bf16) (x6 : Vec F S1x128 .f32) : FVec F S512x128 .f32 :=
  headK (featK xl x1 x2 x3) x4 x5 x6

end Cert.KernelIdeal.Hand

end
-- ==== Proof.Payload.lean ====
/-
  The body's four stores are the four streams: the output buffer after the body is the overlay of four
  row bands of 512 rows, each the stream function of the matching 1024 rows of the input block.
-/
import proofs.«141145_g11802570129985_cont_fleet_79_16_alg».proof.Proof.Stream

set_option maxRecDepth 16384

noncomputable section

namespace Cert.KernelIdeal.Hand

open Cert.KernelIdeal Cert.KernelIdeal.Gen Idealize.ShloMosaic Idealize.SL.Sem

variable {F : FTy → Type} [FloatOps F]

/-- What the body leaves in the output buffer, band by band. -/
theorem out_eq_streams (x0 : Vec F S4096x33 .bf16) (x1 : Vec F S33x4096 .bf16) (x2 : Vec F S4096x32 .bf16) (x3 : Vec F S1x32 .f32) (x4 : Vec F S65x4096 .bf16) (x5 : Vec F S4096x128 .bf16) (x6 : Vec F S1x128 .f32) :
    out0_7 x0 x1 x2 x3 x4 x5 x6 = View.canon [⟨r0_41, streamOf (View.ld x0 r0_40) x1 x2 x3 x4 x5 x6⟩, ⟨r0_39, streamOf (View.ld x0 r0_38) x1 x2 x3 x4 x5 x6⟩, ⟨r0_37, streamOf (View.ld x0 r0_36) x1 x2 x3 x4 x5 x6⟩, ⟨r0_35, streamOf (View.ld x0 r0_0) x1 x2 x3 x4 x5 x6⟩] := by
  unfold out0_7
  rfl

end Cert.KernelIdeal.Hand

end
-- ==== Proof.Spec.lean ====
/-
  The network both programs compute, written once over the extended reals, row by row.

  A row x of 32 numbers goes through two layers: the hidden value at k is relu (∑ᵢ xᵢ·W1ᵢₖ + b1ₖ), and
  feature j is relu (∑ₖ hiddenₖ·W2ₖⱼ + b2ⱼ). The features of a row of the first input and of the matching
  row of the second are set side by side (64 numbers z); the third layer's hidden value at k is
  relu (∑ₑ zₑ·W3ₑₖ + b3ₖ) and output j is ∑ₖ hidden3ₖ·W4ₖⱼ + b4ⱼ.
  Nothing here needs finiteness: only that addition of extended reals is commutative and associative and that
  one is a unit of the product.
-/
import Idealize.ShloMosaic.PureOps.Ideal
import Idealize.ShloMosaic.PureOps.IdealRules
import Idealize.ShloMosaic.Lib.ValueIdx
import Mathlib.Algebra.BigOperators.Fin
import Mathlib.Logic.Equiv.Fin.Basic

noncomputable section

open scoped BigOperators

namespace Cert.Siamese

open Idealize.ShloMosaic Idealize.ShloMosaic.ValueIdx

/-- Layers 1 and 2 on one row. -/
def featRow (W1 : Fin 32 → Fin 4096 → EReal) (b1 : Fin 4096 → EReal) (W2 : Fin 4096 → Fin 32 → EReal) (b2 : Fin 32 → EReal)
    (x : Fin 32 → EReal) (j : Fin 32) : EReal :=
  max (∑ k : Fin 4096, max (∑ i : Fin 32, x i * W1 i k + b1 k) 0 * W2 k j + b2 j) 0

/-- Two rows of 32 side by side. -/
def join (a b : Fin 32 → EReal) (e : Fin 64) : EReal :=
  if h : e.val < 32 then a ⟨e.val, h⟩ else b ⟨e.val - 32, by have := e.isLt; omega⟩

/-- Layers 3 and 4 on one joined row. -/
def headRow (W3 : Fin 64 → Fin 4096 → EReal) (b3 : Fin 4096 → EReal) (W4 : Fin 4096 → Fin 128 → EReal) (b4 : Fin 128 → EReal)
    (z : Fin 64 → EReal) (j : Fin 128) : EReal :=
  ∑ k : Fin 4096, max (∑ e : Fin 64, z e * W3 e k + b3 k) 0 * W4 k j + b4 j

/-- The whole network on a pair of rows. -/
def netRow (W1 : Fin 32 → Fin 4096 → EReal) (b1 : Fin 4096 → EReal) (W2 : Fin 4096 → Fin 32 → EReal) (b2 : Fin 32 → EReal)
    (W3 : Fin 64 → Fin 4096 → EReal) (b3 : Fin 4096 → EReal) (W4 : Fin 4096 → Fin 128 → EReal) (b4 : Fin 128 → EReal)
    (s n : Fin 32 → EReal) (j : Fin 128) : EReal :=
  headRow W3 b3 W4 b4 (join (featRow W1 b1 W2 b2 s) (featRow W1 b1 W2 b2 n)) j

abbrev A2 (a b : Nat) : Type := (⟨2, ![a, b]⟩ : Shape).Idx → EReal
abbrev A1 (a : Nat) : Type := (⟨1, ![a]⟩ : Shape).Idx → EReal

/-- Output entry (R, j) from the ten argument arrays. -/
def Gat (st nst : A2 16384 32) (W1 : A2 32 4096) (b1 : A1 4096) (W2 : A2 4096 32) (b2 : A1 32) (W3 : A2 64 4096) (b3 : A1 4096)
    (W4 : A2 4096 128) (b4 : A1 128) (R : Fin 16384) (j : Fin 128) : EReal :=
  netRow (fun a k => W1 (ix2 a k)) (fun k => b1 (ix1 k)) (fun k a => W2 (ix2 k a)) (fun a => b2 (ix1 a))
    (fun e k => W3 (ix2 e k)) (fun k => b3 (ix1 k)) (fun k a => W4 (ix2 k a)) (fun a => b4 (ix1 a))
    (fun a => st (ix2 R a)) (fun a => nst (ix2 R a)) j

/-- The result array as one function of the ten argument arrays. -/
def G (st nst : A2 16384 32) (W1 : A2 32 4096) (b1 : A1 4096) (W2 : A2 4096 32) (b2 : A1 32) (W3 : A2 64 4096) (b3 : A1 4096)
    (W4 : A2 4096 128) (b4 : A1 128) : A2 16384 128 :=
  fun i => Gat st nst W1 b1 W2 b2 W3 b3 W4 b4 ⟨(i 0).val, (i 0).isLt⟩ ⟨(i 1).val, (i 1).isLt⟩

theorem G_ix2 (st nst : A2 16384 32) (W1 : A2 32 4096) (b1 : A1 4096) (W2 : A2 4096 32) (b2 : A1 32) (W3 : A2 64 4096) (b3 : A1 4096)
    (W4 : A2 4096 128) (b4 : A1 128) (R : Fin 16384) (j : Fin 128) :
    G st nst W1 b1 W2 b2 W3 b3 W4 b4 (ix2 R j) = Gat st nst W1 b1 W2 b2 W3 b3 W4 b4 R j := rfl

/-! ## The three literals the programs spell -/

theorem zero_f32 : Ideal.ofBits .f32 0x00000000#32 = 0 := IdealRules.sign_bit.ideal_zero .f32
theorem zero_bf16 : Ideal.ofBits .bf16 0x0000#16 = 0 := IdealRules.sign_bit.ideal_zero .bf16
theorem one_f32 : Ideal.ofBits .f32 0x3F800000#32 = 1 := IdealRules.sign_bit.ideal_onePat .f32

/-! ## A sum over 4096 taken in eight runs of 512 -/

/-- A sum over 4096 is the sum over its eight runs of 512 consecutive indices. -/
theorem sum_runs (f : Fin 4096 → EReal) :
    ∑ k : Fin 4096, f k = ∑ c : Fin 8, ∑ j : Fin 512, f ⟨512 * c.val + j.val, by have := c.isLt; have := j.isLt; omega⟩ := by
  have e := (Equiv.sum_comp (finProdFinEquiv (m := 8) (n := 512)) (fun k : Fin (8 * 512) => f k)).symm
  rw [Fintype.sum_prod_type] at e
  refine e.trans (Finset.sum_congr rfl fun c _ => Finset.sum_congr rfl fun j _ => congrArg f (Fin.ext ?_))
  show j.val + 512 * c.val = 512 * c.val + j.val
  omega

/-- The bias first and then the eight runs added one after the other is the whole sum plus the bias. -/
theorem chunk8 (f : Fin 4096 → EReal) (b : EReal) :
    b + (∑ k : Fin 512, f ⟨0 + k.val, by have := k.isLt; omega⟩) + (∑ k : Fin 512, f ⟨512 + k.val, by have := k.isLt; omega⟩)
      + (∑ k : Fin 512, f ⟨1024 + k.val, by have := k.isLt; omega⟩) + (∑ k : Fin 512, f ⟨1536 + k.val, by have := k.isLt; omega⟩)
      + (∑ k : Fin 512, f ⟨2048 + k.val, by have := k.isLt; omega⟩) + (∑ k : Fin 512, f ⟨2560 + k.val, by have := k.isLt; omega⟩)
      + (∑ k : Fin 512, f ⟨3072 + k.val, by have := k.isLt; omega⟩) + (∑ k : Fin 512, f ⟨3584 + k.val, by have := k.isLt; omega⟩)
      = ∑ k : Fin 4096, f k + b := by
  rw [sum_runs, Fin.sum_univ_eight]
  have h : ∀ (c : Fin 8) (o : Nat) (ho : 512 * c.val = o),
      (∑ j : Fin 512, f ⟨512 * c.val + j.val, by have := c.isLt; have := j.isLt; omega⟩)
        = ∑ k : Fin 512, f ⟨o + k.val, by have := c.isLt; have := k.isLt; omega⟩ := by
    intro c o ho; subst ho; rfl
  rw [h 0 0 rfl, h 1 512 rfl, h 2 1024 rfl, h 3 1536 rfl, h 4 2048 rfl, h 5 2560 rfl, h 6 3072 rfl, h 7 3584 rfl]
  abel

end Cert.Siamese

end
-- ==== Proof.Args.lean ====
/-
  Names for the ten argument arrays of a core, read as functions to the extended reals, and the size of the grid.
-/
import proofs.«141145_g11802570129985_cont_fleet_79_16_alg».proof.Proof.Gen.KernelIdeal.Frame
import proofs.«141145_g11802570129985_cont_fleet_79_16_alg».proof.Proof.Spec
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Siamese

variable (m : (ℓ : Loc nD τ sig) → Buf (Elt Ideal) ℓ)

/-- The grid has eight points. -/
theorem tlt (t : Fin cfg0.N) : t.val < 8 := by
  have h : cfg0.N = 8 := N_0
  have := t.isLt
  omega

/-! ## The ten argument arrays on core `c`, as functions to the extended reals -/

abbrev argSt (c : Dev nD) : A2 16384 32 := m ((c : Thread nD τ).loc main_arg0)
abbrev argNst (c : Dev nD) : A2 16384 32 := m ((c : Thread nD τ).loc main_arg1)
abbrev argW1 (c : Dev nD) : A2 32 4096 := m ((c : Thread nD τ).loc main_arg2)
abbrev argB1 (c : Dev nD) : A1 4096 := m ((c : Thread nD τ).loc main_arg3)
abbrev argW2 (c : Dev nD) : A2 4096 32 := m ((c : Thread nD τ).loc main_arg4)
abbrev argB2 (c : Dev nD) : A1 32 := m ((c : Thread nD τ).loc main_arg5)
abbrev argW3 (c : Dev nD) : A2 64 4096 := m ((c : Thread nD τ).loc main_arg6)
abbrev argB3 (c : Dev nD) : A1 4096 := m ((c : Thread nD τ).loc main_arg7)
abbrev argW4 (c : Dev nD) : A2 4096 128 := m ((c : Thread nD τ).loc main_arg8)
abbrev argB4 (c : Dev nD) : A1 128 := m ((c : Thread nD τ).loc main_arg9)

end Cert.KernelIdeal.Hand

end
-- ==== Proof.BlocksW.lean ====
/-
  The weight and bias windows: each holds one array whole at every grid point, and that array is an argument
  array up to the host's preparation. The augmented first weight is the first weight with the first bias as a
  33rd row, the augmented third weight the third weight with the third bias as a 65th row; the second and fourth
  weights only change float format (the identity on extended reals); the second and fourth biases are reshaped
  to one row.
-/
import proofs.«141145_g11802570129985_cont_fleet_79_16_alg».proof.Proof.Args
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Siamese

variable (m : (ℓ : Loc nD τ sig) → Buf (Elt Ideal) ℓ)

namespace BlkW

/-! ### The index maps of the six windows are constantly (0, 0) -/

/-- Window 1 stays at block (0, 0). -/
theorem idx1 : ∀ t : Fin cfg0.N, win0_1.index t (0 : Fin 2) = 0 ∧ win0_1.index t (1 : Fin 2) = 0 :=
  (by decide +kernel : ∀ t : Fin grid0.N, _)
/-- Window 2 stays at block (0, 0). -/
theorem idx2 : ∀ t : Fin cfg0.N, win0_2.index t (0 : Fin 2) = 0 ∧ win0_2.index t (1 : Fin 2) = 0 :=
  (by decide +kernel : ∀ t : Fin grid0.N, _)
/-- Window 3 stays at block (0, 0). -/
theorem idx3 : ∀ t : Fin cfg0.N, win0_3.index t (0 : Fin 2) = 0 ∧ win0_3.index t (1 : Fin 2) = 0 :=
  (by decide +kernel : ∀ t : Fin grid0.N, _)
/-- Window 4 stays at block (0, 0). -/
theorem idx4 : ∀ t : Fin cfg0.N, win0_4.index t (0 : Fin 2) = 0 ∧ win0_4.index t (1 : Fin 2) = 0 :=
  (by decide +kernel : ∀ t : Fin grid0.N, _)
/-- Window 5 stays at block (0, 0). -/
theorem idx5 : ∀ t : Fin cfg0.N, win0_5.index t (0 : Fin 2) = 0 ∧ win0_5.index t (1 : Fin 2) = 0 :=
  (by decide +kernel : ∀ t : Fin grid0.N, _)
/-- Window 6 stays at block (0, 0). -/
theorem idx6 : ∀ t : Fin cfg0.N, win0_6.index t (0 : Fin 2) = 0 ∧ win0_6.index t (1 : Fin 2) = 0 :=
  (by decide +kernel : ∀ t : Fin grid0.N, _)

/-! ### Each window's block is its whole array -/

/-- Window 1's block at any point is the augmented first weight, entry by entry. -/
theorem iblk1_apply (c : Dev nD) (t : Fin cfg0.N) (x : S33x4096.Idx) :
    (iblk m c 1 t : Vec Ideal S33x4096 .bf16) x = (V m c main_v11 : S33x4096.Idx → EReal) x := by
  unfold iblk
  rw [View.read_apply]
  show V m c main_v11 _ = V m c main_v11 _
  congr 1
  funext a
  apply Fin.ext
  match a with
  | ⟨0, _⟩ => show win0_1.index t 0 * 33 + 1 * (x 0).val = (x 0).val; rw [(idx1 t).1]; omega
  | ⟨1, _⟩ => show win0_1.index t 1 * 4096 + 1 * (x 1).val = (x 1).val; rw [(idx1 t).2]; omega

/-- Window 2's block at any point is the converted second weight, entry by entry. -/
theorem iblk2_apply (c : Dev nD) (t : Fin cfg0.N) (x : S4096x32.Idx) :
    (iblk m c 2 t : Vec Ideal S4096x32 .bf16) x = (V m c main_v15 : S4096x32.Idx → EReal) x := by
  unfold iblk
  rw [View.read_apply]
  show V m c main_v15 _ = V m c main_v15 _
  congr 1
  funext a
  apply Fin.ext
  match a with
  | ⟨0, _⟩ => show win0_2.index t 0 * 4096 + 1 * (x 0).val = (x 0).val; rw [(idx2 t).1]; omega
  | ⟨1, _⟩ => show win0_2.index t 1 * 32 + 1 * (x 1).val = (x 1).val; rw [(idx2 t).2]; omega

/-- Window 3's block at any point is the reshaped second bias, entry by entry. -/
theorem iblk3_apply (c : Dev nD) (t : Fin cfg0.N) (x : S1x32.Idx) :
    (iblk m c 3 t : Vec Ideal S1x32 .f32) x = (V m c main_v16 : S1x32.Idx → EReal) x := by
  unfold iblk
  rw [View.read_apply]
  show V m c main_v16 _ = V m c main_v16 _
  congr 1
  funext a
  apply Fin.ext
  match a with
  | ⟨0, _⟩ => show win0_3.index t 0 * 1 + 1 * (x 0).val = (x 0).val; rw [(idx3 t).1]; omega
  | ⟨1, _⟩ => show win0_3.index t 1 * 32 + 1 * (x 1).val = (x 1).val; rw [(idx3 t).2]; omega

/-- Window 4's block at any point is the augmented third weight, entry by entry. -/
theorem iblk4_apply (c : Dev nD) (t : Fin cfg0.N) (x : S65x4096.Idx) :
    (iblk m c 4 t : Vec Ideal S65x4096 .bf16) x = (V m c main_v14 : S65x4096.Idx → EReal) x := by
  unfold iblk
  rw [View.read_apply]
  show V m c main_v14 _ = V m c main_v14 _
  congr 1
  funext a
  apply Fin.ext
  match a with
  | ⟨0, _⟩ => show win0_4.index t 0 * 65 + 1 * (x 0).val = (x 0).val; rw [(idx4 t).1]; omega
  | ⟨1, _⟩ => show win0_4.index t 1 * 4096 + 1 * (x 1).val = (x 1).val; rw [(idx4 t).2]; omega

/-- Window 5's block at any point is the converted fourth weight, entry by entry. -/
theorem iblk5_apply (c : Dev nD) (t : Fin cfg0.N) (x : S4096x128.Idx) :
    (iblk m c 5 t : Vec Ideal S4096x128 .bf16) x = (V m c main_v17 : S4096x128.Idx → EReal) x := by
  unfold iblk
  rw [View.read_apply]
  show V m c main_v17 _ = V m c main_v17 _
  congr 1
  funext a
  apply Fin.ext
  match a with
  | ⟨0, _⟩ => show win0_5.index t 0 * 4096 + 1 * (x 0).val = (x 0).val; rw [(idx5 t).1]; omega
  | ⟨1, _⟩ => show win0_5.index t 1 * 128 + 1 * (x 1).val = (x 1).val; rw [(idx5 t).2]; omega

/-- Window 6's block at any point is the reshaped fourth bias, entry by entry. -/
theorem iblk6_apply (c : Dev nD) (t : Fin cfg0.N) (x : S1x128.Idx) :
    (iblk m c 6 t : Vec Ideal S1x128 .f32) x = (V m c main_v18 : S1x128.Idx → EReal) x := by
  unfold iblk
  rw [View.read_apply]
  show V m c main_v18 _ = V m c main_v18 _
  congr 1
  funext a
  apply Fin.ext
  match a with
  | ⟨0, _⟩ => show win0_6.index t 0 * 1 + 1 * (x 0).val = (x 0).val; rw [(idx6 t).1]; omega
  | ⟨1, _⟩ => show win0_6.index t 1 * 128 + 1 * (x 1).val = (x 1).val; rw [(idx6 t).2]; omega

/-! ### The six arrays as the host's terms of the argument arrays -/

/-- The augmented first weight: the first weight over the first bias broadcast to one row, then the format change. -/
theorem v11 (c : Dev nD) : (V m c main_v11 : S33x4096.Idx → EReal) =
    truncf .bf16 (concatenate S33x4096 0 [⟨S32x4096, (argW1 m c : FVec Ideal S32x4096 .f32)⟩,
      ⟨S1x4096, (broadcastInDim S1x4096 ![1] bcast_S4096_S1x4096_1 (argB1 m c) : FVec Ideal S1x4096 .f32)⟩]
      concatenates_S32x4096_S1x4096_S33x4096_d0 : FVec Ideal S33x4096 .f32) bitsLt_bf16_f32 := by
  dsimp only [Gen.V, Gen.hostOps0]
  after_results <;> rfl

/-- The augmented third weight: the third weight over the third bias broadcast to one row, then the format change. -/
theorem v14 (c : Dev nD) : (V m c main_v14 : S65x4096.Idx → EReal) =
    truncf .bf16 (concatenate S65x4096 0 [⟨S64x4096, (argW3 m c : FVec Ideal S64x4096 .f32)⟩,
      ⟨S1x4096, (broadcastInDim S1x4096 ![1] bcast_S4096_S1x4096_1 (argB3 m c) : FVec Ideal S1x4096 .f32)⟩]
      concatenates_S64x4096_S1x4096_S65x4096_d0 : FVec Ideal S65x4096 .f32) bitsLt_bf16_f32 := by
  dsimp only [Gen.V, Gen.hostOps0]
  after_results <;> rfl

/-- The second weight after the format change. -/
theorem v15 (c : Dev nD) : (V m c main_v15 : S4096x32.Idx → EReal) =
    (truncf .bf16 (argW2 m c : FVec Ideal S4096x32 .f32) bitsLt_bf16_f32 : FVec Ideal S4096x32 .bf16) := by
  dsimp only [Gen.V, Gen.hostOps0]
  after_results <;> rfl

/-- The second bias reshaped to one row. -/
theorem v16 (c : Dev nD) : (V m c main_v16 : S1x32.Idx → EReal) = shapeCast S1x32 (argB2 m c) shapeCasts_S32_S1x32 := by
  dsimp only [Gen.V, Gen.hostOps0]
  after_results <;> rfl

/-- The fourth weight after the format change. -/
theorem v17 (c : Dev nD) : (V m c main_v17 : S4096x128.Idx → EReal) =
    (truncf .bf16 (argW4 m c : FVec Ideal S4096x128 .f32) bitsLt_bf16_f32 : FVec Ideal S4096x128 .bf16) := by
  dsimp only [Gen.V, Gen.hostOps0]
  after_results <;> rfl

/-- The fourth bias reshaped to one row. -/
theorem v18 (c : Dev nD) : (V m c main_v18 : S1x128.Idx → EReal) = shapeCast S1x128 (argB4 m c) shapeCasts_S128_S1x128 := by
  dsimp only [Gen.V, Gen.hostOps0]
  after_results <;> rfl

/-! ### A weight stacked over a one-row bias, read at an entry -/

/-- A row below the first piece's extent reads the first piece. -/
theorem stack_top {r n : Nat} (W : (⟨2, ![r, n]⟩ : Shape).Idx → EReal) (B : (⟨2, ![1, n]⟩ : Shape).Idx → EReal)
    (h : Shape.Concatenates [(⟨2, ![r, n]⟩ : Shape), ⟨2, ![1, n]⟩] ⟨2, ![r + 1, n]⟩ 0) (i : Fin r) (k : Fin n) :
    concatenate ⟨2, ![r + 1, n]⟩ 0 [⟨⟨2, ![r, n]⟩, W⟩, ⟨⟨2, ![1, n]⟩, B⟩] h (ix2 i.castSucc k) = W (ix2 i k) :=
  concatenate_pair_apply_left 0 W B h (ix2 i.castSucc k) rfl (ix2 i k)
    (fun b => match b with | ⟨0, _⟩ => rfl | ⟨1, _⟩ => rfl)

/-- The last row reads the second piece's only row. -/
theorem stack_last {r n : Nat} (W : (⟨2, ![r, n]⟩ : Shape).Idx → EReal) (B : (⟨2, ![1, n]⟩ : Shape).Idx → EReal)
    (h : Shape.Concatenates [(⟨2, ![r, n]⟩ : Shape), ⟨2, ![1, n]⟩] ⟨2, ![r + 1, n]⟩ 0) (k : Fin n) :
    concatenate ⟨2, ![r + 1, n]⟩ 0 [⟨⟨2, ![r, n]⟩, W⟩, ⟨⟨2, ![1, n]⟩, B⟩] h (ix2 (Fin.last r) k) = B (ix2 (0 : Fin 1) k) :=
  concatenate_pair_apply_right 0 W B h (ix2 (Fin.last r) k) rfl rfl (ix2 (0 : Fin 1) k)
    (fun b hb => match b, hb with | ⟨0, _⟩, hb => absurd rfl hb | ⟨1, _⟩, _ => rfl)
    (by show 0 + r = r; omega)

/-- A vector broadcast to one row reads, at (0, k), its entry k. -/
theorem row_of_vec {n : Nat} (hn : n ≠ 1) (b : (⟨1, ![n]⟩ : Shape).Idx → EReal)
    (h : (⟨1, ![n]⟩ : Shape).BroadcastsInDim ⟨2, ![1, n]⟩ ![1]) (k : Fin n) :
    broadcastInDim ⟨2, ![1, n]⟩ ![1] h b (ix2 (0 : Fin 1) k) = b (ix1 k) :=
  broadcastInDim_apply ![1] h b (ix2 (0 : Fin 1) k) (ix1 k)
    (fun a => match a with | ⟨0, _⟩ => by show k.val = if n = 1 then 0 else k.val; rw [if_neg hn])

end BlkW

/-- The first 32 rows of the augmented first weight are the first weight. -/
theorem blk_w1 (c : Dev nD) (t : Fin cfg0.N) (i : Fin 32) (k : Fin 4096) :
    (iblk m c 1 t : Vec Ideal S33x4096 .bf16) (ix2 i.castSucc k) = argW1 m c (ix2 i k) := by
  refine (BlkW.iblk1_apply m c t _).trans ?_
  refine (congrFun (BlkW.v11 m c) _).trans ?_
  refine (truncf_apply (φ := .f32) (ψ := .bf16) _ bitsLt_bf16_f32 _).trans ?_
  exact BlkW.stack_top (r := 32) (n := 4096) (argW1 m c) _ concatenates_S32x4096_S1x4096_S33x4096_d0 i k

/-- Its last row is the first bias. -/
theorem blk_b1 (c : Dev nD) (t : Fin cfg0.N) (k : Fin 4096) :
    (iblk m c 1 t : Vec Ideal S33x4096 .bf16) (ix2 (Fin.last 32) k) = argB1 m c (ix1 k) := by
  refine (BlkW.iblk1_apply m c t _).trans ?_
  refine (congrFun (BlkW.v11 m c) _).trans ?_
  refine (truncf_apply (φ := .f32) (ψ := .bf16) _ bitsLt_bf16_f32 _).trans ?_
  refine (BlkW.stack_last (r := 32) (n := 4096) (argW1 m c) _ concatenates_S32x4096_S1x4096_S33x4096_d0 k).trans ?_
  exact BlkW.row_of_vec (by decide) _ _ k

/-- The second weight, whole. -/
theorem blk_w2 (c : Dev nD) (t : Fin cfg0.N) (k : Fin 4096) (j : Fin 32) :
    (iblk m c 2 t : Vec Ideal S4096x32 .bf16) (ix2 k j) = argW2 m c (ix2 k j) := by
  refine (BlkW.iblk2_apply m c t _).trans ?_
  exact congrFun (BlkW.v15 m c) _

/-- The second bias as one row. -/
theorem blk_b2 (c : Dev nD) (t : Fin cfg0.N) (j : Fin 32) :
    (iblk m c 3 t : Vec Ideal S1x32 .f32) (ix2 (0 : Fin 1) j) = argB2 m c (ix1 j) := by
  refine (BlkW.iblk3_apply m c t _).trans ?_
  refine (congrFun (BlkW.v16 m c) _).trans ?_
  exact shapeCast_a_1a_apply _ _ 0 j

/-- The first 64 rows of the augmented third weight are the third weight. -/
theorem blk_w3 (c : Dev nD) (t : Fin cfg0.N) (e : Fin 64) (k : Fin 4096) :
    (iblk m c 4 t : Vec Ideal S65x4096 .bf16) (ix2 e.castSucc k) = argW3 m c (ix2 e k) := by
  refine (BlkW.iblk4_apply m c t _).trans ?_
  refine (congrFun (BlkW.v14 m c) _).trans ?_
  refine (truncf_apply (φ := .f32) (ψ := .bf16) _ bitsLt_bf16_f32 _).trans ?_
  exact BlkW.stack_top (r := 64) (n := 4096) (argW3 m c) _ concatenates_S64x4096_S1x4096_S65x4096_d0 e k

/-- Its last row is the third bias. -/
theorem blk_b3 (c : Dev nD) (t : Fin cfg0.N) (k : Fin 4096) :
    (iblk m c 4 t : Vec Ideal S65x4096 .bf16) (ix2 (Fin.last 64) k) = argB3 m c (ix1 k) := by
  refine (BlkW.iblk4_apply m c t _).trans ?_
  refine (congrFun (BlkW.v14 m c) _).trans ?_
  refine (truncf_apply (φ := .f32) (ψ := .bf16) _ bitsLt_bf16_f32 _).trans ?_
  refine (BlkW.stack_last (r := 64) (n := 4096) (argW3 m c) _ concatenates_S64x4096_S1x4096_S65x4096_d0 k).trans ?_
  exact BlkW.row_of_vec (by decide) _ _ k

/-- The fourth weight, whole. -/
theorem blk_w4 (c : Dev nD) (t : Fin cfg0.N) (k : Fin 4096) (j : Fin 128) :
    (iblk m c 5 t : Vec Ideal S4096x128 .bf16) (ix2 k j) = argW4 m c (ix2 k j) := by
  refine (BlkW.iblk5_apply m c t _).trans ?_
  exact congrFun (BlkW.v17 m c) _

/-- The fourth bias as one row. -/
theorem blk_b4 (c : Dev nD) (t : Fin cfg0.N) (j : Fin 128) :
    (iblk m c 6 t : Vec Ideal S1x128 .f32) (ix2 (0 : Fin 1) j) = argB4 m c (ix1 j) := by
  refine (BlkW.iblk6_apply m c t _).trans ?_
  refine (congrFun (BlkW.v18 m c) _).trans ?_
  exact shapeCast_a_1a_apply _ _ 0 j

end Cert.KernelIdeal.Hand

end
-- ==== Proof.BlocksX.lean ====
/-
  The stacked input window. Row 1024·g + r of the 32768 stacked rows (g < 32, r < 512) is row 512·g + r of the
  first input with a one appended, and row 1024·g + 512 + r is the same row of the second input with a one
  appended; the block at grid point t is rows 4096·t … 4096·t + 4095, so its stream s (rows 1024·s … 1024·s + 1023)
  holds rows 2048·t + 512·s … of the first input and then the same rows of the second.
-/
import proofs.«141145_g11802570129985_cont_fleet_79_16_alg».proof.Proof.Args
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Siamese

variable (m : (ℓ : Loc nD τ sig) → Buf (Elt Ideal) ℓ)

namespace BlkX

/-! ## The stacked array at an entry -/

/-- An input with a column of ones appended, read in the narrow format, as 32 groups of 512 rows. -/
abbrev aug (x : FVec Ideal S16384x32 .f32) : FVec Ideal S32x512x33 .bf16 :=
  shapeCast S32x512x33 (truncf .bf16 (concatenate S16384x33 1 [⟨S16384x32, x⟩, ⟨S16384x1, broadcastInDim S16384x1 ![] bcast_S_S16384x1 (constant (F := Ideal) S_ .f32 0x3F800000#32)⟩] concatenates_S16384x32_S16384x1_S16384x33_d1) bitsLt_bf16_f32) shapeCasts_S16384x33_S32x512x33

/-- The two inputs so prepared, the second after the first within each group, as 32768 rows. -/
abbrev stacked (x y : FVec Ideal S16384x32 .f32) : FVec Ideal S32768x33 .bf16 :=
  shapeCast S32768x33 (concatenate S32x1024x33 1 [⟨S32x512x33, aug x⟩, ⟨S32x512x33, aug y⟩] concatenates_S32x512x33_S32x512x33_S32x1024x33_d1) shapeCasts_S32x1024x33_S32768x33

/-- The stacked array as the host operations' term of the two inputs. -/
theorem v8_eq (c : Dev nD) :
    (V m c main_v8 : S32768x33.Idx → EReal) = stacked (m ((c : Thread nD τ).loc main_arg0)) (m ((c : Thread nD τ).loc main_arg1)) := by
  dsimp only [Gen.V, Gen.hostOps0]; after_results; rfl

/-- Row r of group g of a prepared input, at one of the first 32 columns, is row 512·g + r of the input. -/
theorem aug_col (x : FVec Ideal S16384x32 .f32) (g : Fin 32) (r : Fin 512) (i : Fin 32) :
    aug x (ix3 g r i.castSucc) = x (ix2 (⟨512 * g.val + r.val, by have := g.isLt; have := r.isLt; omega⟩ : Fin 16384) i) := by
  refine (shapeCast_apply _ shapeCasts_S16384x33_S32x512x33 (ix3 g r i.castSucc) (ix2 (⟨512 * g.val + r.val, by have := g.isLt; have := r.isLt; omega⟩ : Fin 16384) i.castSucc) ?_).trans ?_
  · rw [Shape.rowMajor_val_two, Shape.rowMajor_val_three]
    show (512 * g.val + r.val) * 33 + i.val = (g.val * 512 + r.val) * 33 + i.val
    omega
  · refine (truncf_apply (ψ := .bf16) (φ := .f32) _ bitsLt_bf16_f32 _).trans ?_
    exact concatenate_pair_apply_left (t := S16384x33) (s₁ := S16384x32) (s₂ := S16384x1) 1 x _ concatenates_S16384x32_S16384x1_S16384x33_d1 _ rfl
      (ix2 (⟨512 * g.val + r.val, by have := g.isLt; have := r.isLt; omega⟩ : Fin 16384) i)
      (fun b => match b with | ⟨0, _⟩ => rfl | ⟨1, _⟩ => rfl)

/-- Row r of group g of a prepared input, at the last column, is one. -/
theorem aug_one (x : FVec Ideal S16384x32 .f32) (g : Fin 32) (r : Fin 512) :
    aug x (ix3 g r (Fin.last 32)) = (1 : EReal) := by
  refine (shapeCast_apply _ shapeCasts_S16384x33_S32x512x33 (ix3 g r (Fin.last 32)) (ix2 (⟨512 * g.val + r.val, by have := g.isLt; have := r.isLt; omega⟩ : Fin 16384) (Fin.last 32)) ?_).trans ?_
  · rw [Shape.rowMajor_val_two, Shape.rowMajor_val_three]
    show (512 * g.val + r.val) * 33 + 32 = (g.val * 512 + r.val) * 33 + 32
    omega
  · refine (truncf_apply (ψ := .bf16) (φ := .f32) _ bitsLt_bf16_f32 _).trans ?_
    refine (concatenate_pair_apply_right (t := S16384x33) (s₁ := S16384x32) (s₂ := S16384x1) 1 x _ concatenates_S16384x32_S16384x1_S16384x33_d1 _ rfl rfl
      (ix2 (⟨512 * g.val + r.val, by have := g.isLt; have := r.isLt; omega⟩ : Fin 16384) (0 : Fin 1))
      (fun b => match b with | ⟨0, _⟩ => fun _ => rfl | ⟨1, _⟩ => fun h => absurd rfl h) rfl).trans ?_
    refine (broadcastInDim_apply _ bcast_S_S16384x1 _ _ ix0 (fun a => a.elim0)).trans ?_
    exact (constant_apply _ _).trans one_f32

/-- Stacked row 1024·g + r, r below 512, at one of the first 32 columns, is row 512·g + r of the first input. -/
theorem stacked_fst (x y : FVec Ideal S16384x32 .f32) (g : Fin 32) (r : Fin 512) (i : Fin 32) :
    stacked x y (ix2 (⟨1024 * g.val + r.val, by have := g.isLt; have := r.isLt; omega⟩ : Fin 32768) i.castSucc)
      = x (ix2 (⟨512 * g.val + r.val, by have := g.isLt; have := r.isLt; omega⟩ : Fin 16384) i) := by
  refine (shapeCast_apply _ shapeCasts_S32x1024x33_S32768x33 _ (ix3 g (⟨r.val, by have := r.isLt; omega⟩ : Fin 1024) i.castSucc) ?_).trans ?_
  · rw [Shape.rowMajor_val_three, Shape.rowMajor_val_two]
    show (g.val * 1024 + r.val) * 33 + i.val = (1024 * g.val + r.val) * 33 + i.val
    omega
  · refine (concatenate_pair_apply_left (t := S32x1024x33) (s₁ := S32x512x33) (s₂ := S32x512x33) 1 (aug x) (aug y)
      concatenates_S32x512x33_S32x512x33_S32x1024x33_d1 _ rfl (ix3 g r i.castSucc)
      (fun b => match b with | ⟨0, _⟩ => rfl | ⟨1, _⟩ => rfl | ⟨2, _⟩ => rfl)).trans ?_
    exact aug_col x g r i

/-- Stacked row 1024·g + 512 + r, r below 512, at one of the first 32 columns, is row 512·g + r of the second input. -/
theorem stacked_snd (x y : FVec Ideal S16384x32 .f32) (g : Fin 32) (r : Fin 512) (i : Fin 32) :
    stacked x y (ix2 (⟨1024 * g.val + 512 + r.val, by have := g.isLt; have := r.isLt; omega⟩ : Fin 32768) i.castSucc)
      = y (ix2 (⟨512 * g.val + r.val, by have := g.isLt; have := r.isLt; omega⟩ : Fin 16384) i) := by
  refine (shapeCast_apply _ shapeCasts_S32x1024x33_S32768x33 _ (ix3 g (⟨512 + r.val, by have := r.isLt; omega⟩ : Fin 1024) i.castSucc) ?_).trans ?_
  · rw [Shape.rowMajor_val_three, Shape.rowMajor_val_two]
    show (g.val * 1024 + (512 + r.val)) * 33 + i.val = (1024 * g.val + 512 + r.val) * 33 + i.val
    omega
  · refine (concatenate_pair_apply_right (t := S32x1024x33) (s₁ := S32x512x33) (s₂ := S32x512x33) 1 (aug x) (aug y)
      concatenates_S32x512x33_S32x512x33_S32x1024x33_d1 _ rfl rfl (ix3 g r i.castSucc)
      (fun b => match b with | ⟨0, _⟩ => fun _ => rfl | ⟨1, _⟩ => fun h => absurd rfl h | ⟨2, _⟩ => fun _ => rfl)
      (by show r.val + 512 = 512 + r.val; omega)).trans ?_
    exact aug_col y g r i

/-- The last column of the stacked array is one in every row. -/
theorem stacked_one (x y : FVec Ideal S16384x32 .f32) (z : Fin 32768) :
    stacked x y (ix2 z (Fin.last 32)) = (1 : EReal) := by
  have hz := z.isLt
  by_cases h : z.val % 1024 < 512
  · refine (shapeCast_apply _ shapeCasts_S32x1024x33_S32768x33 _
      (ix3 (⟨z.val / 1024, by omega⟩ : Fin 32) (⟨z.val % 1024, by omega⟩ : Fin 1024) (Fin.last 32)) ?_).trans ?_
    · rw [Shape.rowMajor_val_three, Shape.rowMajor_val_two]
      show (z.val / 1024 * 1024 + z.val % 1024) * 33 + 32 = z.val * 33 + 32
      omega
    · refine (concatenate_pair_apply_left (t := S32x1024x33) (s₁ := S32x512x33) (s₂ := S32x512x33) 1 (aug x) (aug y)
        concatenates_S32x512x33_S32x512x33_S32x1024x33_d1 _ rfl
        (ix3 (⟨z.val / 1024, by omega⟩ : Fin 32) (⟨z.val % 1024, h⟩ : Fin 512) (Fin.last 32))
        (fun b => match b with | ⟨0, _⟩ => rfl | ⟨1, _⟩ => rfl | ⟨2, _⟩ => rfl)).trans ?_
      exact aug_one x _ _
  · refine (shapeCast_apply _ shapeCasts_S32x1024x33_S32768x33 _
      (ix3 (⟨z.val / 1024, by omega⟩ : Fin 32) (⟨z.val % 1024, by omega⟩ : Fin 1024) (Fin.last 32)) ?_).trans ?_
    · rw [Shape.rowMajor_val_three, Shape.rowMajor_val_two]
      show (z.val / 1024 * 1024 + z.val % 1024) * 33 + 32 = z.val * 33 + 32
      omega
    · refine (concatenate_pair_apply_right (t := S32x1024x33) (s₁ := S32x512x33) (s₂ := S32x512x33) 1 (aug x) (aug y)
        concatenates_S32x512x33_S32x512x33_S32x1024x33_d1 _ rfl rfl
        (ix3 (⟨z.val / 1024, by omega⟩ : Fin 32) (⟨z.val % 1024 - 512, by omega⟩ : Fin 512) (Fin.last 32))
        (fun b => match b with | ⟨0, _⟩ => fun _ => rfl | ⟨1, _⟩ => fun h => absurd rfl h | ⟨2, _⟩ => fun _ => rfl)
        (by show z.val % 1024 - 512 + 512 = z.val % 1024; omega)).trans ?_
      exact aug_one y _ _

/-! ## The window's block at an entry -/

/-- The block of the stacked input at grid point t is rows 4096·t … 4096·t + 4095 of the stacked array. -/
theorem iblk_apply (c : Dev nD) (t : Fin cfg0.N) (y : Fin 4096) (col : Fin 33) :
    (iblk m c 0 t : Vec Ideal S4096x33 .bf16) (ix2 y col)
      = (V m c main_v8 : S32768x33.Idx → EReal) (ix2 (⟨4096 * t.val + y.val, by have := tlt t; have := y.isLt; omega⟩ : Fin 32768) col) := by
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold iblk
  rw [View.read_apply]
  show V m c main_v8 _ = V m c main_v8 _
  congr 1
  funext a
  apply Fin.ext
  match a with
  | ⟨0, _⟩ => show win0_0.index t 0 * 4096 + 1 * y.val = 4096 * t.val + y.val; rw [hi.1]; omega
  | ⟨1, _⟩ => show win0_0.index t 1 * 33 + 1 * col.val = col.val; rw [hi.2]; omega

end BlkX

/-! ## The three block facts -/

/-- Stream `s` of the input block at point `t`: its first 512 rows are rows of the first input, -/
theorem blk_x_st (c : Dev nD) (t : Fin cfg0.N) (s : Fin 4) (r : Fin 512) (i : Fin 32) :
    (iblk m c 0 t : Vec Ideal S4096x33 .bf16) (ix2 (⟨1024 * s.val + r.val, by have := s.isLt; have := r.isLt; omega⟩ : Fin 4096) i.castSucc)
      = argSt m c (ix2 (⟨2048 * t.val + 512 * s.val + r.val, by have := tlt t; have := s.isLt; have := r.isLt; omega⟩ : Fin 16384) i) := by
  have ht := tlt t
  have hs := s.isLt
  have hr := r.isLt
  refine (BlkX.iblk_apply m c t _ _).trans ((congrFun (BlkX.v8_eq m c) _).trans ?_)
  have e := BlkX.stacked_fst (argSt m c) (argNst m c) (⟨4 * t.val + s.val, by omega⟩ : Fin 32) r i
  refine Eq.trans (congrArg (BlkX.stacked (argSt m c) (argNst m c)) ?_) (e.trans (congrArg (argSt m c) ?_))
  · exact congrArg (fun z : Fin 32768 => (ix2 z i.castSucc : S32768x33.Idx))
      (Fin.ext (by show 4096 * t.val + (1024 * s.val + r.val) = 1024 * (4 * t.val + s.val) + r.val; omega))
  · exact congrArg (fun z : Fin 16384 => (ix2 z i : S16384x32.Idx))
      (Fin.ext (by show 512 * (4 * t.val + s.val) + r.val = 2048 * t.val + 512 * s.val + r.val; omega))

/-- its next 512 rows the same rows of the second input, -/
theorem blk_x_nst (c : Dev nD) (t : Fin cfg0.N) (s : Fin 4) (r : Fin 512) (i : Fin 32) :
    (iblk m c 0 t : Vec Ideal S4096x33 .bf16) (ix2 (⟨1024 * s.val + 512 + r.val, by have := s.isLt; have := r.isLt; omega⟩ : Fin 4096) i.castSucc)
      = argNst m c (ix2 (⟨2048 * t.val + 512 * s.val + r.val, by have := tlt t; have := s.isLt; have := r.isLt; omega⟩ : Fin 16384) i) := by
  have ht := tlt t
  have hs := s.isLt
  have hr := r.isLt
  refine (BlkX.iblk_apply m c t _ _).trans ((congrFun (BlkX.v8_eq m c) _).trans ?_)
  have e := BlkX.stacked_snd (argSt m c) (argNst m c) (⟨4 * t.val + s.val, by omega⟩ : Fin 32) r i
  refine Eq.trans (congrArg (BlkX.stacked (argSt m c) (argNst m c)) ?_) (e.trans (congrArg (argNst m c) ?_))
  · exact congrArg (fun z : Fin 32768 => (ix2 z i.castSucc : S32768x33.Idx))
      (Fin.ext (by show 4096 * t.val + (1024 * s.val + 512 + r.val) = 1024 * (4 * t.val + s.val) + 512 + r.val; omega))
  · exact congrArg (fun z : Fin 16384 => (ix2 z i : S16384x32.Idx))
      (Fin.ext (by show 512 * (4 * t.val + s.val) + r.val = 2048 * t.val + 512 * s.val + r.val; omega))

/-- and the last column is one everywhere. -/
theorem blk_x_one (c : Dev nD) (t : Fin cfg0.N) (y : Fin 4096) :
    (iblk m c 0 t : Vec Ideal S4096x33 .bf16) (ix2 y (Fin.last 32)) = (1 : EReal) := by
  exact (BlkX.iblk_apply m c t y (Fin.last 32)).trans ((congrFun (BlkX.v8_eq m c) _).trans (BlkX.stacked_one _ _ _))

end Cert.KernelIdeal.Hand

end
-- ==== Proof.FeatValue.lean ====
/-
  Layers 1 and 2 of one stream, read at an entry: for loaded rows whose last (33rd) column is one, entry (r, j)
  of the stream's feature block is the row function `featRow` of row r's first 32 columns, with the first weight
  and bias read off the augmented weight block (rows 0…31 and row 32) — the appended one times the bias row is
  the bias, and the eight chunk sums over 512 hidden columns added onto the second bias are the sum over all 4096.
-/
import proofs.«141145_g11802570129985_cont_fleet_79_16_alg».proof.Proof.Stream
import proofs.«141145_g11802570129985_cont_fleet_79_16_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open scoped BigOperators

namespace Cert.KernelIdeal.Hand

open Cert.KernelIdeal Cert.KernelIdeal.Gen Idealize.ShloMosaic Idealize.SL.Sem
open Idealize.ShloMosaic.ValueIdx Cert.Siamese

namespace Feat

/-! ## The two products read at an entry -/

/-- The first product's left index keeps the row of the result's index. -/
theorem lhs1_0 (i : S1024x512.Idx) (q : dot_S1024x33_S33x512_S1024x512_1_0_0_1_n_n.contr.Idx) :
    (dot_S1024x33_S33x512_S1024x512_1_0_0_1_n_n.lhsIdx i q 0).val = (i 0).val := by
  unfold DotDims.lhsIdx
  rw [dif_neg (show ¬(0 : Fin S1024x33.rank) ∈ dot_S1024x33_S33x512_S1024x512_1_0_0_1_n_n.lhsBatch by decide), dif_pos (show (0 : Fin S1024x33.rank) ∈ dot_S1024x33_S33x512_S1024x512_1_0_0_1_n_n.lhsNonContracting by decide)]
  rfl
/-- The first product's left index has the summed coordinate as its column. -/
theorem lhs1_1 (i : S1024x512.Idx) (q : dot_S1024x33_S33x512_S1024x512_1_0_0_1_n_n.contr.Idx) :
    (dot_S1024x33_S33x512_S1024x512_1_0_0_1_n_n.lhsIdx i q 1).val = (q ⟨0, by decide⟩).val :=
  dot_S1024x33_S33x512_S1024x512_1_0_0_1_n_n.lhsIdx_val_of_single rfl i q
/-- The first product's right index has the summed coordinate as its row. -/
theorem rhs1_0 (i : S1024x512.Idx) (q : dot_S1024x33_S33x512_S1024x512_1_0_0_1_n_n.contr.Idx) :
    (dot_S1024x33_S33x512_S1024x512_1_0_0_1_n_n.rhsIdx i q 0).val = (q ⟨0, by decide⟩).val :=
  dot_S1024x33_S33x512_S1024x512_1_0_0_1_n_n.rhsIdx_val_of_single rfl i q
/-- The first product's right index keeps the column of the result's index. -/
theorem rhs1_1 (i : S1024x512.Idx) (q : dot_S1024x33_S33x512_S1024x512_1_0_0_1_n_n.contr.Idx) :
    (dot_S1024x33_S33x512_S1024x512_1_0_0_1_n_n.rhsIdx i q 1).val = (i 1).val := by
  unfold DotDims.rhsIdx
  rw [dif_neg (show ¬(1 : Fin S33x512.rank) ∈ dot_S1024x33_S33x512_S1024x512_1_0_0_1_n_n.rhsBatch by decide), dif_pos (show (1 : Fin S33x512.rank) ∈ dot_S1024x33_S33x512_S1024x512_1_0_0_1_n_n.rhsNonContracting by decide)]
  rfl

/-- Entry (r, k) of the first product into the zero accumulator is the sum over the 33 columns of row r times column k. -/
theorem mm1_apply (x : FVec Ideal S1024x33 .bf16) (w : FVec Ideal S33x512 .bf16) (r : Fin 1024) (k : Fin 512) :
    matmul (F := Ideal) dot_S1024x33_S33x512_S1024x512_1_0_0_1_n_n none x w (constant S1024x512 .f32 0x00000000#32) (ix2 r k)
      = ∑ i : Fin 33, x (ix2 r i) * w (ix2 i k) := by
  simp only [matmul]
  rw [Ideal.matmul_constant_zero_apply, ← Equiv.sum_comp (ValueIdx.contrEquiv1 dot_S1024x33_S33x512_S1024x512_1_0_0_1_n_n 33 rfl rfl).symm]
  refine Finset.sum_congr rfl fun i _ => ?_
  have hk := ValueIdx.contrEquiv1_symm_val dot_S1024x33_S33x512_S1024x512_1_0_0_1_n_n 33 rfl rfl i
  have el : dot_S1024x33_S33x512_S1024x512_1_0_0_1_n_n.lhsIdx (ix2 r k) ((ValueIdx.contrEquiv1 dot_S1024x33_S33x512_S1024x512_1_0_0_1_n_n 33 rfl rfl).symm i) = ix2 r i := funext fun a => Fin.ext (by
    match a with
    | ⟨0, _⟩ => exact lhs1_0 _ _
    | ⟨1, _⟩ => exact (lhs1_1 _ _).trans hk)
  have er : dot_S1024x33_S33x512_S1024x512_1_0_0_1_n_n.rhsIdx (ix2 r k) ((ValueIdx.contrEquiv1 dot_S1024x33_S33x512_S1024x512_1_0_0_1_n_n 33 rfl rfl).symm i) = ix2 i k := funext fun a => Fin.ext (by
    match a with
    | ⟨0, _⟩ => exact (rhs1_0 _ _).trans hk
    | ⟨1, _⟩ => exact rhs1_1 _ _)
  rw [el, er]

/-- The second product's left index keeps the row of the result's index. -/
theorem lhs2_0 (i : S1024x32.Idx) (q : dot_S1024x512_S512x32_S1024x32_1_0_0_1_n_n.contr.Idx) :
    (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
  rfl
/-- The second product's left index has the summed coordinate as its column. -/
theorem lhs2_1 (i : S1024x32.Idx) (q : dot_S1024x512_S512x32_S1024x32_1_0_0_1_n_n.contr.Idx) :
    (dot_S1024x512_S512x32_S1024x32_1_0_0_1_n_n.lhsIdx i q 1).val = (q ⟨0, by decide⟩).val :=
  dot_S1024x512_S512x32_S1024x32_1_0_0_1_n_n.lhsIdx_val_of_single rfl i q
/-- The second product's right index has the summed coordinate as its row. -/
theorem rhs2_0 (i : S1024x32.Idx) (q : dot_S1024x512_S512x32_S1024x32_1_0_0_1_n_n.contr.Idx) :
    (dot_S1024x512_S512x32_S1024x32_1_0_0_1_n_n.rhsIdx i q 0).val = (q ⟨0, by decide⟩).val :=
  dot_S1024x512_S512x32_S1024x32_1_0_0_1_n_n.rhsIdx_val_of_single rfl i q
/-- The second product's right index keeps the column of the result's index. -/
theorem rhs2_1 (i : S1024x32.Idx) (q : dot_S1024x512_S512x32_S1024x32_1_0_0_1_n_n.contr.Idx) :
    (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
  rfl

/-- Entry (r, j) of the second product into the zero accumulator is the sum over the 512 hidden columns of row r times column j. -/
theorem mm2_apply (h : FVec Ideal S1024x512 .bf16) (w : FVec Ideal S512x32 .bf16) (r : Fin 1024) (j : Fin 32) :
    matmul (F := Ideal) dot_S1024x512_S512x32_S1024x32_1_0_0_1_n_n none h w (constant S1024x32 .f32 0x00000000#32) (ix2 r j)
      = ∑ k : Fin 512, h (ix2 r k) * w (ix2 k j) := by
  simp only [matmul]
  rw [Ideal.matmul_constant_zero_apply, ← Equiv.sum_comp (ValueIdx.contrEquiv1 dot_S1024x512_S512x32_S1024x32_1_0_0_1_n_n 512 rfl rfl).symm]
  refine Finset.sum_congr rfl fun k _ => ?_
  have hk := ValueIdx.contrEquiv1_symm_val dot_S1024x512_S512x32_S1024x32_1_0_0_1_n_n 512 rfl rfl k
  have el : dot_S1024x512_S512x32_S1024x32_1_0_0_1_n_n.lhsIdx (ix2 r j) ((ValueIdx.contrEquiv1 dot_S1024x512_S512x32_S1024x32_1_0_0_1_n_n 512 rfl rfl).symm k) = ix2 r k := funext fun a => Fin.ext (by
    match a with
    | ⟨0, _⟩ => exact lhs2_0 _ _
    | ⟨1, _⟩ => exact (lhs2_1 _ _).trans hk)
  have er : dot_S1024x512_S512x32_S1024x32_1_0_0_1_n_n.rhsIdx (ix2 r j) ((ValueIdx.contrEquiv1 dot_S1024x512_S512x32_S1024x32_1_0_0_1_n_n 512 rfl rfl).symm k) = ix2 k j := funext fun a => Fin.ext (by
    match a with
    | ⟨0, _⟩ => exact (rhs2_0 _ _).trans hk
    | ⟨1, _⟩ => exact rhs2_1 _ _)
  rw [el, er]

/-! ## A hidden chunk and its contribution at an entry -/

/-- Entry (r, k) of a hidden chunk is the relu of row r times column k of the chunk's augmented weights. -/
theorem hid1_apply (x : FVec Ideal S1024x33 .bf16) (w : FVec Ideal S33x512 .bf16) (r : Fin 1024) (k : Fin 512) :
    hid1 (F := Ideal) x w (ix2 r k) = max (∑ i : Fin 33, x (ix2 r i) * w (ix2 i k)) 0 := by
  unfold hid1
  rw [maximumf_apply, truncf_apply, broadcast_apply, shapeCast_self, mm1_apply]
  exact congrArg (max _) zero_bf16

/-- Entry (r, j) of a chunk's contribution is the sum over the chunk's 512 hidden units of the unit times its weight towards j. -/
theorem term2_apply (x : FVec Ideal S1024x33 .bf16) (w1 : FVec Ideal S33x512 .bf16) (w2 : FVec Ideal S512x32 .bf16) (r : Fin 1024) (j : Fin 32) :
    term2 (F := Ideal) x w1 w2 (ix2 r j)
      = ∑ k : Fin 512, max (∑ i : Fin 33, x (ix2 r i) * w1 (ix2 i k)) 0 * w2 (ix2 k j) := by
  unfold term2
  rw [shapeCast_self, mm2_apply]
  exact Finset.sum_congr rfl fun k _ => congrArg (· * w2 (ix2 k j)) (hid1_apply x w1 r k)

/-- With a one in the last place, a sum of 33 products is the sum of the first 32 plus the last factor. -/
theorem aug_sum (x w : Fin 33 → EReal) (h : x (Fin.last 32) = 1) :
    ∑ i : Fin 33, x i * w i = ∑ i : Fin 32, x i.castSucc * w i.castSucc + w (Fin.last 32) := by
  rw [Fin.sum_univ_castSucc, h, one_mul]

/-! ## The loaded blocks at an entry -/

/-- Entry (i, k) of the 512 columns of the first weight block from column o on is entry (i, o + k) of the block. -/
theorem ldA_apply (x1 : Vec Ideal S33x4096 .bf16) (o : Nat) (inb : ∀ a, (![0, o] : Fin 2 → Nat) a + S33x512.size a ≤ S33x4096.size a)
    (i : Fin 33) (k : Fin 512) (h : o + k.val < 4096) :
    View.ld x1 (Rect.unit (s := S33x4096) ![0, o] S33x512.size inb) (ix2 i k) = x1 (ix2 i ⟨o + k.val, h⟩) :=
  congrArg x1 (funext fun a => Fin.ext (by
    match a with
    | ⟨0, _⟩ => show (0 + 1 * i.val : Nat) = i.val; omega
    | ⟨1, _⟩ => show (o + 1 * k.val : Nat) = o + k.val; omega))

/-- Entry (k, j) of the 512 rows of the second weight block from row o on is entry (o + k, j) of the block. -/
theorem ldB_apply (x2 : Vec Ideal S4096x32 .bf16) (o : Nat) (inb : ∀ a, (![o, 0] : Fin 2 → Nat) a + S512x32.size a ≤ S4096x32.size a)
    (k : Fin 512) (j : Fin 32) (h : o + k.val < 4096) :
    View.ld x2 (Rect.unit (s := S4096x32) ![o, 0] S512x32.size inb) (ix2 k j) = x2 (ix2 ⟨o + k.val, h⟩ j) :=
  congrArg x2 (funext fun a => Fin.ext (by
    match a with
    | ⟨0, _⟩ => show (o + 1 * k.val : Nat) = o + k.val; omega
    | ⟨1, _⟩ => show (0 + 1 * j.val : Nat) = j.val; omega))

/-- The whole bias row loaded is the bias row. -/
theorem ldC_apply (x3 : Vec Ideal S1x32 .f32) (j : Fin 32) :
    View.ld x3 r0_1 (ix2 (0 : Fin 1) j) = x3 (ix2 (0 : Fin 1) j) :=
  congrArg x3 (funext fun a => Fin.ext (by
    match a with
    | ⟨0, _⟩ => show (0 + 1 * (0 : Fin 1).val : Nat) = (0 : Fin 1).val; simp
    | ⟨1, _⟩ => show (0 + 1 * j.val : Nat) = j.val; omega))

/-- Hidden unit k of row r (the relu of the row's first 32 entries times the first weight's column k, plus the bias at k)
    times its weight towards feature j. -/
def summand (x : FVec Ideal S1024x33 .bf16) (x1 : FVec Ideal S33x4096 .bf16) (x2 : FVec Ideal S4096x32 .bf16) (r : Fin 1024) (j : Fin 32)
    (k : Fin 4096) : EReal :=
  max (∑ i : Fin 32, x (ix2 r i.castSucc) * x1 (ix2 i.castSucc k) + x1 (ix2 (Fin.last 32) k)) 0 * x2 (ix2 k j)

/-- Entry (r, j) of the contribution of the chunk starting at hidden column o, for a row ending in one: the run of 512
    summands from o on. -/
theorem term2_ld (x : FVec Ideal S1024x33 .bf16) (x1 : Vec Ideal S33x4096 .bf16) (x2 : Vec Ideal S4096x32 .bf16) (r : Fin 1024)
    (hone : x (ix2 r (Fin.last 32)) = 1) (o : Nat) (ho : o + 512 ≤ 4096)
    (inbA : ∀ a, (![0, o] : Fin 2 → Nat) a + S33x512.size a ≤ S33x4096.size a)
    (inbB : ∀ a, (![o, 0] : Fin 2 → Nat) a + S512x32.size a ≤ S4096x32.size a) (j : Fin 32) :
    term2 (F := Ideal) x (View.ld x1 (Rect.unit (s := S33x4096) ![0, o] S33x512.size inbA))
        (View.ld x2 (Rect.unit (s := S4096x32) ![o, 0] S512x32.size inbB)) (ix2 r j)
      = ∑ k : Fin 512, summand x x1 x2 r j ⟨o + k.val, by have := k.isLt; omega⟩ := by
  refine (term2_apply x _ _ r j).trans (Finset.sum_congr rfl fun k _ => ?_)
  have hk : o + k.val < 4096 := by have := k.isLt; omega
  have e1 : ∑ i : Fin 33, x (ix2 r i) * View.ld x1 (Rect.unit (s := S33x4096) ![0, o] S33x512.size inbA) (ix2 i k)
      = ∑ i : Fin 32, x (ix2 r i.castSucc) * x1 (ix2 i.castSucc ⟨o + k.val, hk⟩) + x1 (ix2 (Fin.last 32) ⟨o + k.val, hk⟩) := by
    refine (Finset.sum_congr rfl fun i _ => congrArg (x (ix2 r i) * ·) (ldA_apply x1 o inbA i k hk)).trans ?_
    exact aug_sum (fun i => x (ix2 r i)) (fun i => x1 (ix2 i ⟨o + k.val, hk⟩)) hone
  have e2 := ldB_apply x2 o inbB k j hk
  unfold summand
  rw [e1, e2]

end Feat

/-- Layers 1 and 2 of a stream at entry (r, j). -/
theorem featK_apply (xl : Vec Ideal S1024x33 .bf16) (x1 : Vec Ideal S33x4096 .bf16) (x2 : Vec Ideal S4096x32 .bf16) (x3 : Vec Ideal S1x32 .f32)
    (hone : ∀ r : Fin 1024, xl (ix2 r (Fin.last 32)) = 1) (r : Fin 1024) (j : Fin 32) :
    featK (F := Ideal) xl x1 x2 x3 (ix2 r j)
      = featRow (fun i k => x1 (ix2 i.castSucc k)) (fun k => x1 (ix2 (Fin.last 32) k)) (fun k a => x2 (ix2 k a)) (fun a => x3 (ix2 (0 : Fin 1) a))
          (fun i => xl (ix2 r i.castSucc)) j := by
  have hx : shapeCast S1024x33 xl shapeCasts_S1024x33_S1024x33 = xl := shapeCast_self xl _
  have hr : (xl : FVec Ideal S1024x33 .bf16) (ix2 r (Fin.last 32)) = 1 := hone r
  have hb : broadcastTo S1024x32 (shapeCast S1x32 (View.ld x3 r0_1) shapeCasts_S1x32_S1x32) broadcasts_S1x32_S1024x32 (ix2 r j)
      = x3 (ix2 (0 : Fin 1) j) := by
    have hs : shapeCast S1x32 (View.ld x3 r0_1) shapeCasts_S1x32_S1x32 = View.ld x3 r0_1 := shapeCast_self (s := S1x32) _ _
    rw [hs]
    exact (broadcastTo_1b_ab_apply _ _ r j).trans (Feat.ldC_apply x3 j)
  have h0 : term2 (F := Ideal) xl (View.ld x1 r0_2) (View.ld x2 r0_3) (ix2 r j)
      = ∑ k : Fin 512, Feat.summand xl x1 x2 r j ⟨0 + k.val, by have := k.isLt; omega⟩ :=
    Feat.term2_ld xl x1 x2 r hr 0 (by omega) _ _ j
  have h1 : term2 (F := Ideal) xl (View.ld x1 r0_4) (View.ld x2 r0_5) (ix2 r j)
      = ∑ k : Fin 512, Feat.summand xl x1 x2 r j ⟨512 + k.val, by have := k.isLt; omega⟩ :=
    Feat.term2_ld xl x1 x2 r hr 512 (by omega) _ _ j
  have h2 : term2 (F := Ideal) xl (View.ld x1 r0_6) (View.ld x2 r0_7) (ix2 r j)
      = ∑ k : Fin 512, Feat.summand xl x1 x2 r j ⟨1024 + k.val, by have := k.isLt; omega⟩ :=
    Feat.term2_ld xl x1 x2 r hr 1024 (by omega) _ _ j
  have h3 : term2 (F := Ideal) xl (View.ld x1 r0_8) (View.ld x2 r0_9) (ix2 r j)
      = ∑ k : Fin 512, Feat.summand xl x1 x2 r j ⟨1536 + k.val, by have := k.isLt; omega⟩ :=
    Feat.term2_ld xl x1 x2 r hr 1536 (by omega) _ _ j
  have h4 : term2 (F := Ideal) xl (View.ld x1 r0_10) (View.ld x2 r0_11) (ix2 r j)
      = ∑ k : Fin 512, Feat.summand xl x1 x2 r j ⟨2048 + k.val, by have := k.isLt; omega⟩ :=
    Feat.term2_ld xl x1 x2 r hr 2048 (by omega) _ _ j
  have h5 : term2 (F := Ideal) xl (View.ld x1 r0_12) (View.ld x2 r0_13) (ix2 r j)
      = ∑ k : Fin 512, Feat.summand xl x1 x2 r j ⟨2560 + k.val, by have := k.isLt; omega⟩ :=
    Feat.term2_ld xl x1 x2 r hr 2560 (by omega) _ _ j
  have h6 : term2 (F := Ideal) xl (View.ld x1 r0_14) (View.ld x2 r0_15) (ix2 r j)
      = ∑ k : Fin 512, Feat.summand xl x1 x2 r j ⟨3072 + k.val, by have := k.isLt; omega⟩ :=
    Feat.term2_ld xl x1 x2 r hr 3072 (by omega) _ _ j
  have h7 : term2 (F := Ideal) xl (View.ld x1 r0_16) (View.ld x2 r0_17) (ix2 r j)
      = ∑ k : Fin 512, Feat.summand xl x1 x2 r j ⟨3584 + k.val, by have := k.isLt; omega⟩ :=
    Feat.term2_ld xl x1 x2 r hr 3584 (by omega) _ _ j
  unfold featK
  rw [hx, maximumf_apply, broadcast_apply]
  simp only [addf_apply]
  rw [hb, h0, h1, h2, h3, h4, h5, h6, h7]
  unfold featRow
  exact congrArg₂ max (chunk8 (Feat.summand xl x1 x2 r j) (x3 (ix2 (0 : Fin 1) j))) zero_f32

end Cert.KernelIdeal.Hand

end
-- ==== Proof.HeadValue.lean ====
/-
  Layers 3 and 4 of one stream, read at an entry: entry (p, q) of what the stream stores is the row function
  `headRow` of feature row p joined with feature row 512 + p, with the third weight and bias read off the
  augmented weight block (rows 0…63 and row 64) — the trailing one of the paired row times the bias row is the
  bias, and the eight chunk sums over 512 hidden columns added onto the fourth bias are the sum over all 4096.
-/
import proofs.«141145_g11802570129985_cont_fleet_79_16_alg».proof.Proof.Stream
import proofs.«141145_g11802570129985_cont_fleet_79_16_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open scoped BigOperators

namespace Cert.KernelIdeal.Hand

open Cert.KernelIdeal Cert.KernelIdeal.Gen Idealize.ShloMosaic Idealize.SL.Sem
open Idealize.ShloMosaic.ValueIdx Cert.Siamese

namespace Head

/-- Axis 0 of the left index of the third layer's product is the result's row. -/
theorem lhs3_0 (i : S512x512.Idx) (q : dot_S512x65_S65x512_S512x512_1_0_0_1_n_n.contr.Idx) :
    (dot_S512x65_S65x512_S512x512_1_0_0_1_n_n.lhsIdx i q 0).val = (i 0).val := by
  unfold DotDims.lhsIdx
  rw [dif_neg (show ¬(0 : Fin S512x65.rank) ∈ dot_S512x65_S65x512_S512x512_1_0_0_1_n_n.lhsBatch by decide), dif_pos (show (0 : Fin S512x65.rank) ∈ dot_S512x65_S65x512_S512x512_1_0_0_1_n_n.lhsNonContracting by decide)]
  rfl
/-- Axis 1 of the left index of the third layer's product is the contracted coordinate. -/
theorem lhs3_1 (i : S512x512.Idx) (q : dot_S512x65_S65x512_S512x512_1_0_0_1_n_n.contr.Idx) :
    (dot_S512x65_S65x512_S512x512_1_0_0_1_n_n.lhsIdx i q 1).val = (q ⟨0, by decide⟩).val :=
  dot_S512x65_S65x512_S512x512_1_0_0_1_n_n.lhsIdx_val_of_single rfl i q
/-- Axis 0 of the right index of the third layer's product is the contracted coordinate. -/
theorem rhs3_0 (i : S512x512.Idx) (q : dot_S512x65_S65x512_S512x512_1_0_0_1_n_n.contr.Idx) :
    (dot_S512x65_S65x512_S512x512_1_0_0_1_n_n.rhsIdx i q 0).val = (q ⟨0, by decide⟩).val :=
  dot_S512x65_S65x512_S512x512_1_0_0_1_n_n.rhsIdx_val_of_single rfl i q
/-- Axis 1 of the right index of the third layer's product is the result's column. -/
theorem rhs3_1 (i : S512x512.Idx) (q : dot_S512x65_S65x512_S512x512_1_0_0_1_n_n.contr.Idx) :
    (dot_S512x65_S65x512_S512x512_1_0_0_1_n_n.rhsIdx i q 1).val = (i 1).val := by
  unfold DotDims.rhsIdx
  rw [dif_neg (show ¬(1 : Fin S65x512.rank) ∈ dot_S512x65_S65x512_S512x512_1_0_0_1_n_n.rhsBatch by decide), dif_pos (show (1 : Fin S65x512.rank) ∈ dot_S512x65_S65x512_S512x512_1_0_0_1_n_n.rhsNonContracting by decide)]
  rfl

/-- Entry (p, k) of the third layer's product into the zero accumulator is the sum over the 65 contracted entries. -/
theorem matmul3_apply (u : FVec Ideal S512x65 .bf16) (w : FVec Ideal S65x512 .bf16) (p : Fin 512) (k : Fin 512) :
    matmul (F := Ideal) dot_S512x65_S65x512_S512x512_1_0_0_1_n_n none u w (constant S512x512 .f32 0x00000000#32) (ix2 p k)
      = ∑ e : Fin 65, u (ix2 p e) * w (ix2 e k) := by
  simp only [matmul]
  rw [Ideal.matmul_constant_zero_apply, ← Equiv.sum_comp (ValueIdx.contrEquiv1 dot_S512x65_S65x512_S512x512_1_0_0_1_n_n 65 rfl rfl).symm]
  refine Finset.sum_congr rfl fun e _ => ?_
  have hk := ValueIdx.contrEquiv1_symm_val dot_S512x65_S65x512_S512x512_1_0_0_1_n_n 65 rfl rfl e
  have el : dot_S512x65_S65x512_S512x512_1_0_0_1_n_n.lhsIdx (ix2 p k) ((ValueIdx.contrEquiv1 dot_S512x65_S65x512_S512x512_1_0_0_1_n_n 65 rfl rfl).symm e) = ix2 p e := funext fun a => Fin.ext (by
    match a with
    | ⟨0, _⟩ => exact lhs3_0 _ _
    | ⟨1, _⟩ => exact (lhs3_1 _ _).trans hk)
  have er : dot_S512x65_S65x512_S512x512_1_0_0_1_n_n.rhsIdx (ix2 p k) ((ValueIdx.contrEquiv1 dot_S512x65_S65x512_S512x512_1_0_0_1_n_n 65 rfl rfl).symm e) = ix2 e k := funext fun a => Fin.ext (by
    match a with
    | ⟨0, _⟩ => exact (rhs3_0 _ _).trans hk
    | ⟨1, _⟩ => exact rhs3_1 _ _)
  rw [el, er]

/-- Axis 0 of the left index of the fourth layer's product is the result's row. -/
theorem lhs4_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
/-- Axis 1 of the left index of the fourth layer's product is the contracted coordinate. -/
theorem lhs4_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
/-- Axis 0 of the right index of the fourth layer's product is the contracted coordinate. -/
theorem rhs4_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
/-- Axis 1 of the right index of the fourth layer's product is the result's column. -/
theorem rhs4_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- Entry (p, q) of the fourth layer's product into the zero accumulator is the sum over the 512 contracted entries. -/
theorem matmul4_apply (h : FVec Ideal S512x512 .bf16) (w : FVec Ideal S512x128 .bf16) (p : Fin 512) (q : Fin 128) :
    matmul (F := Ideal) dot_S512x512_S512x128_S512x128_1_0_0_1_n_n none h w (constant S512x128 .f32 0x00000000#32) (ix2 p q)
      = ∑ k : Fin 512, h (ix2 p k) * w (ix2 k q) := by
  simp only [matmul]
  rw [Ideal.matmul_constant_zero_apply, ← Equiv.sum_comp (ValueIdx.contrEquiv1 dot_S512x512_S512x128_S512x128_1_0_0_1_n_n 512 rfl rfl).symm]
  refine Finset.sum_congr rfl fun k _ => ?_
  have hk := ValueIdx.contrEquiv1_symm_val dot_S512x512_S512x128_S512x128_1_0_0_1_n_n 512 rfl rfl k
  have el : dot_S512x512_S512x128_S512x128_1_0_0_1_n_n.lhsIdx (ix2 p q) ((ValueIdx.contrEquiv1 dot_S512x512_S512x128_S512x128_1_0_0_1_n_n 512 rfl rfl).symm k) = ix2 p k := funext fun a => Fin.ext (by
    match a with
    | ⟨0, _⟩ => exact lhs4_0 _ _
    | ⟨1, _⟩ => exact (lhs4_1 _ _).trans hk)
  have er : dot_S512x512_S512x128_S512x128_1_0_0_1_n_n.rhsIdx (ix2 p q) ((ValueIdx.contrEquiv1 dot_S512x512_S512x128_S512x128_1_0_0_1_n_n 512 rfl rfl).symm k) = ix2 k q := funext fun a => Fin.ext (by
    match a with
    | ⟨0, _⟩ => exact (rhs4_0 _ _).trans hk
    | ⟨1, _⟩ => exact rhs4_1 _ _)
  rw [el, er]

/-- The paired row at a column below 32 is the first half's row p at that column. -/
theorem pairU_lo (o : FVec Ideal S1024x32 .f32) (p : Fin 512) (c : Fin 65) (h : c.val < 32) :
    pairU (F := Ideal) o (ix2 p c) = o (ix2 (⟨p.val, by have := p.isLt; omega⟩ : Fin 1024) (⟨c.val, h⟩ : Fin 32)) := by
  unfold pairU
  refine (truncf_apply (s := S512x65) (φ := FTy.f32) (ψ := FTy.bf16) _ bitsLt_bf16_f32 _).trans ?_
  refine (concatenate_apply_piece (1 : Fin 2) _ _ (ix2 p c) 0 ?hk S512x32 (extractStridedSlice S512x32 ![0, 0] o slices_S1024x32_o0_0_S512x32) ?hxk rfl 0 ?hpre
    (ix2 p (⟨c.val, h⟩ : Fin 32)) ?_ ?_).trans ?_
  · show (0 : Nat) < 3; omega
  · rfl
  · rfl
  · intro b hb
    match b with
    | ⟨0, _⟩ => rfl
    | ⟨1, _⟩ => exact absurd rfl hb
  · show 0 + c.val = c.val
    omega
  · refine extractStridedSlice_apply _ o _ _ _ fun a => ?_
    match a with
    | ⟨0, _⟩ => show p.val = 0 + p.val; omega
    | ⟨1, _⟩ => show c.val = 0 + c.val; omega

/-- The paired row at a column from 32 to 63 is the second half's row 512 + p at that column less 32. -/
theorem pairU_hi (o : FVec Ideal S1024x32 .f32) (p : Fin 512) (c : Fin 65) (h1 : 32 ≤ c.val) (h2 : c.val < 64) :
    pairU (F := Ideal) o (ix2 p c) = o (ix2 (⟨512 + p.val, by have := p.isLt; omega⟩ : Fin 1024) (⟨c.val - 32, by omega⟩ : Fin 32)) := by
  unfold pairU
  refine (truncf_apply (s := S512x65) (φ := FTy.f32) (ψ := FTy.bf16) _ bitsLt_bf16_f32 _).trans ?_
  refine (concatenate_apply_piece (1 : Fin 2) _ _ (ix2 p c) 1 ?hk S512x32 (extractStridedSlice S512x32 ![512, 0] o slices_S1024x32_o512_0_S512x32) ?hxk rfl 32 ?hpre
    (ix2 p (⟨c.val - 32, by omega⟩ : Fin 32)) ?_ ?_).trans ?_
  · show (1 : Nat) < 3; omega
  · rfl
  · rfl
  · intro b hb
    match b with
    | ⟨0, _⟩ => rfl
    | ⟨1, _⟩ => exact absurd rfl hb
  · show 32 + (c.val - 32) = c.val
    omega
  · refine extractStridedSlice_apply _ o _ _ _ fun a => ?_
    match a with
    | ⟨0, _⟩ => show 512 + p.val = 512 + p.val; rfl
    | ⟨1, _⟩ => show c.val - 32 = 0 + (c.val - 32); omega

/-- The paired row's last column is one. -/
theorem pairU_last (o : FVec Ideal S1024x32 .f32) (p : Fin 512) :
    pairU (F := Ideal) o (ix2 p (Fin.last 64)) = 1 := by
  unfold pairU
  refine (truncf_apply (s := S512x65) (φ := FTy.f32) (ψ := FTy.bf16) _ bitsLt_bf16_f32 _).trans ?_
  refine (concatenate_apply_piece (1 : Fin 2) _ _ (ix2 p (Fin.last 64)) 2 ?hk S512x1 (broadcast S512x1 (Scalar.ofBits (F := Ideal) .f32 0x3F800000#32)) ?hxk rfl 64 ?hpre
    (ix2 p (0 : Fin 1)) ?_ ?_).trans ?_
  · show (2 : Nat) < 3; omega
  · rfl
  · rfl
  · intro b hb
    match b with
    | ⟨0, _⟩ => rfl
    | ⟨1, _⟩ => exact absurd rfl hb
  · rfl
  · exact one_f32

/-- The paired row at the first 64 columns is row p of the first half joined with row 512 + p. -/
theorem pairU_castSucc (o : FVec Ideal S1024x32 .f32) (p : Fin 512) (e : Fin 64) :
    pairU (F := Ideal) o (ix2 p e.castSucc)
      = join (fun a => o (ix2 (⟨p.val, by have := p.isLt; omega⟩ : Fin 1024) a)) (fun a => o (ix2 (⟨512 + p.val, by have := p.isLt; omega⟩ : Fin 1024) a)) e := by
  unfold join
  by_cases h : e.val < 32
  · rw [dif_pos h]
    exact pairU_lo o p e.castSucc h
  · rw [dif_neg h]
    exact pairU_hi o p e.castSucc (by show 32 ≤ e.val; omega) (by show e.val < 64; exact e.isLt)

/-- Entry (p, k) of a hidden chunk is relu of the paired row against column k of the augmented weight block. -/
theorem hid3_apply (u : FVec Ideal S512x65 .bf16) (w3 : Vec Ideal S65x512 .bf16) (p : Fin 512) (k : Fin 512) :
    hid3 (F := Ideal) u w3 (ix2 p k) = max (∑ e : Fin 65, u (ix2 p e) * w3 (ix2 e k)) 0 := by
  unfold hid3
  show max (matmul (F := Ideal) dot_S512x65_S65x512_S512x512_1_0_0_1_n_n none u (shapeCast S65x512 w3 shapeCasts_S65x512_S65x512) (constant S512x512 .f32 0x00000000#32) (ix2 p k)) (Ideal.ofBits .bf16 0x0000#16) = _
  rw [shapeCast_self, matmul3_apply, zero_bf16]

/-- Entry (p, q) of a chunk's contribution is the sum over its 512 hidden columns of hidden entry times weight. -/
theorem term4_apply (u : FVec Ideal S512x65 .bf16) (w3 : Vec Ideal S65x512 .bf16) (w4 : Vec Ideal S512x128 .bf16) (p : Fin 512) (q : Fin 128) :
    term4 (F := Ideal) u w3 w4 (ix2 p q)
      = ∑ k : Fin 512, max (∑ e : Fin 65, u (ix2 p e) * w3 (ix2 e k)) 0 * w4 (ix2 k q) := by
  unfold term4
  rw [shapeCast_self, matmul4_apply]
  exact Finset.sum_congr rfl fun k _ => congrArg (· * w4 (ix2 k q)) (hid3_apply u w3 p k)

/-- A load of 512 columns of the augmented third weight block starting at column `off` reads the block at the shifted column. -/
theorem ld_cols (x4 : Vec Ideal S65x4096 .bf16) (off : Nat) (inb : ∀ a, (![0, off] : Fin 2 → Nat) a + S65x512.size a ≤ S65x4096.size a)
    (hoff : off + 512 ≤ 4096) (e : Fin 65) (k : Fin 512) :
    View.ld x4 (Rect.unit (s := S65x4096) ![0, off] S65x512.size inb) (ix2 e k)
      = x4 (ix2 e (⟨off + k.val, by have := k.isLt; omega⟩ : Fin 4096)) :=
  congrArg x4 (funext fun a => Fin.ext (by
    match a with
    | ⟨0, _⟩ => show 0 + 1 * e.val = e.val; omega
    | ⟨1, _⟩ => show off + 1 * k.val = off + k.val; omega))

/-- A load of 512 rows of the fourth weight block starting at row `off` reads the block at the shifted row. -/
theorem ld_rows (x5 : Vec Ideal S4096x128 .bf16) (off : Nat) (inb : ∀ a, (![off, 0] : Fin 2 → Nat) a + S512x128.size a ≤ S4096x128.size a)
    (hoff : off + 512 ≤ 4096) (k : Fin 512) (q : Fin 128) :
    View.ld x5 (Rect.unit (s := S4096x128) ![off, 0] S512x128.size inb) (ix2 k q)
      = x5 (ix2 (⟨off + k.val, by have := k.isLt; omega⟩ : Fin 4096) q) :=
  congrArg x5 (funext fun a => Fin.ext (by
    match a with
    | ⟨0, _⟩ => show off + 1 * k.val = off + k.val; omega
    | ⟨1, _⟩ => show 0 + 1 * q.val = q.val; omega))

/-- The fourth bias row, loaded whole and broadcast down the 512 rows, reads the bias at the column. -/
theorem bias4_apply (x6 : Vec Ideal S1x128 .f32) (p : Fin 512) (q : Fin 128) :
    broadcastTo S512x128 (shapeCast S1x128 (View.ld x6 r0_18) shapeCasts_S1x128_S1x128) broadcasts_S1x128_S512x128 (ix2 p q)
      = x6 (ix2 (0 : Fin 1) q) := by
  refine (broadcastTo_apply _ broadcasts_S1x128_S512x128 (ix2 p q) (ix2 (0 : Fin 1) q) fun a => ?_).trans ?_
  · match a with
    | ⟨0, _⟩ => rfl
    | ⟨1, _⟩ => rfl
  · refine (congrFun (shapeCast_self (View.ld x6 r0_18) shapeCasts_S1x128_S1x128) _).trans ?_
    exact congrArg x6 (funext fun a => Fin.ext (by
      match a with
      | ⟨0, _⟩ => rfl
      | ⟨1, _⟩ => show 0 + 1 * q.val = q.val; omega))

/-- The hidden entry at column k of the third layer on the joined row, times the fourth weight at (k, q). -/
def hterm (o : FVec Ideal S1024x32 .f32) (x4 : Vec Ideal S65x4096 .bf16) (x5 : Vec Ideal S4096x128 .bf16) (p : Fin 512) (q : Fin 128)
    (k : Fin 4096) : EReal :=
  max (∑ e : Fin 64, join (fun a => o (ix2 (⟨p.val, by have := p.isLt; omega⟩ : Fin 1024) a)) (fun a => o (ix2 (⟨512 + p.val, by have := p.isLt; omega⟩ : Fin 1024) a)) e
        * x4 (ix2 e.castSucc k) + x4 (ix2 (Fin.last 64) k)) 0 * x5 (ix2 k q)

/-- The sum over the 65 entries of the paired row against a column of the augmented block: the 64 joined entries against the
    weight rows, plus the bias row's entry (the trailing one times it). -/
theorem pair_sum (o : FVec Ideal S1024x32 .f32) (x4 : Vec Ideal S65x4096 .bf16) (p : Fin 512) (k : Fin 4096) :
    ∑ e : Fin 65, pairU (F := Ideal) o (ix2 p e) * x4 (ix2 e k)
      = ∑ e : Fin 64, join (fun a => o (ix2 (⟨p.val, by have := p.isLt; omega⟩ : Fin 1024) a)) (fun a => o (ix2 (⟨512 + p.val, by have := p.isLt; omega⟩ : Fin 1024) a)) e
          * x4 (ix2 e.castSucc k) + x4 (ix2 (Fin.last 64) k) := by
  refine (Fin.sum_univ_castSucc (n := 64) fun e : Fin 65 => pairU (F := Ideal) o (ix2 p e) * x4 (ix2 e k)).trans ?_
  have hl : pairU (F := Ideal) o (ix2 p (Fin.last 64)) * x4 (ix2 (Fin.last 64) k) = x4 (ix2 (Fin.last 64) k) := by
    rw [pairU_last]; exact one_mul _
  have hs : ∀ e : Fin 64, pairU (F := Ideal) o (ix2 p e.castSucc) * x4 (ix2 e.castSucc k)
      = join (fun a => o (ix2 (⟨p.val, by have := p.isLt; omega⟩ : Fin 1024) a)) (fun a => o (ix2 (⟨512 + p.val, by have := p.isLt; omega⟩ : Fin 1024) a)) e * x4 (ix2 e.castSucc k) :=
    fun e => congrArg (· * x4 (ix2 e.castSucc k)) (pairU_castSucc o p e)
  exact congrArg₂ (· + ·) (Finset.sum_congr rfl fun e _ => hs e) hl

/-- Entry (p, q) of the contribution of the chunk of hidden columns `off` … `off` + 511: the sum of the hidden terms over the chunk. -/
theorem term4_chunk (o : FVec Ideal S1024x32 .f32) (x4 : Vec Ideal S65x4096 .bf16) (x5 : Vec Ideal S4096x128 .bf16) (off : Nat)
    (inb4 : ∀ a, (![0, off] : Fin 2 → Nat) a + S65x512.size a ≤ S65x4096.size a)
    (inb5 : ∀ a, (![off, 0] : Fin 2 → Nat) a + S512x128.size a ≤ S4096x128.size a)
    (hoff : off + 512 ≤ 4096) (p : Fin 512) (q : Fin 128) :
    term4 (F := Ideal) (pairU o) (View.ld x4 (Rect.unit (s := S65x4096) ![0, off] S65x512.size inb4))
        (View.ld x5 (Rect.unit (s := S4096x128) ![off, 0] S512x128.size inb5)) (ix2 p q)
      = ∑ k : Fin 512, hterm o x4 x5 p q (⟨off + k.val, by have := k.isLt; omega⟩ : Fin 4096) := by
  refine (term4_apply _ _ _ p q).trans (Finset.sum_congr rfl fun k _ => ?_)
  unfold hterm
  have h1 : ∑ e : Fin 65, pairU (F := Ideal) o (ix2 p e) * View.ld x4 (Rect.unit (s := S65x4096) ![0, off] S65x512.size inb4) (ix2 e k)
      = ∑ e : Fin 65, pairU (F := Ideal) o (ix2 p e) * x4 (ix2 e (⟨off + k.val, by have := k.isLt; omega⟩ : Fin 4096)) :=
    Finset.sum_congr rfl fun e _ => congrArg (pairU (F := Ideal) o (ix2 p e) * ·) (ld_cols x4 off inb4 hoff e k)
  have h2 := ld_rows x5 off inb5 hoff k q
  exact congrArg₂ (fun a b => max a 0 * b) (h1.trans (pair_sum o x4 p _)) h2

/-- Nine summands equal one by one have equal left-nested sums. -/
theorem add9 {a0 a1 a2 a3 a4 a5 a6 a7 a8 b0 b1 b2 b3 b4 b5 b6 b7 b8 : EReal}
    (h0 : a0 = b0) (h1 : a1 = b1) (h2 : a2 = b2) (h3 : a3 = b3) (h4 : a4 = b4) (h5 : a5 = b5) (h6 : a6 = b6) (h7 : a7 = b7) (h8 : a8 = b8) :
    a0 + a1 + a2 + a3 + a4 + a5 + a6 + a7 + a8 = b0 + b1 + b2 + b3 + b4 + b5 + b6 + b7 + b8 := by
  subst h0 h1 h2 h3 h4 h5 h6 h7 h8; rfl

end Head

open Head in
/-- Layers 3 and 4 of a stream at entry (p, q). -/
theorem headK_apply (o : FVec Ideal S1024x32 .f32) (x4 : Vec Ideal S65x4096 .bf16) (x5 : Vec Ideal S4096x128 .bf16) (x6 : Vec Ideal S1x128 .f32)
    (p : Fin 512) (q : Fin 128) :
    headK (F := Ideal) o x4 x5 x6 (ix2 p q)
      = headRow (fun e k => x4 (ix2 e.castSucc k)) (fun k => x4 (ix2 (Fin.last 64) k)) (fun k a => x5 (ix2 k a)) (fun a => x6 (ix2 (0 : Fin 1) a))
          (join (fun a => o (ix2 (⟨p.val, by have := p.isLt; omega⟩ : Fin 1024) a)) (fun a => o (ix2 (⟨512 + p.val, by have := p.isLt; omega⟩ : Fin 1024) a))) q := by
  have hb := bias4_apply x6 p q
  have t0 := term4_chunk o x4 x5 0 inb_S65x4096_S65x512_0_0 inb_S4096x128_S512x128_0_0 (by omega) p q
  have t1 := term4_chunk o x4 x5 512 inb_S65x4096_S65x512_0_512 inb_S4096x128_S512x128_512_0 (by omega) p q
  have t2 := term4_chunk o x4 x5 1024 inb_S65x4096_S65x512_0_1024 inb_S4096x128_S512x128_1024_0 (by omega) p q
  have t3 := term4_chunk o x4 x5 1536 inb_S65x4096_S65x512_0_1536 inb_S4096x128_S512x128_1536_0 (by omega) p q
  have t4 := term4_chunk o x4 x5 2048 inb_S65x4096_S65x512_0_2048 inb_S4096x128_S512x128_2048_0 (by omega) p q
  have t5 := term4_chunk o x4 x5 2560 inb_S65x4096_S65x512_0_2560 inb_S4096x128_S512x128_2560_0 (by omega) p q
  have t6 := term4_chunk o x4 x5 3072 inb_S65x4096_S65x512_0_3072 inb_S4096x128_S512x128_3072_0 (by omega) p q
  have t7 := term4_chunk o x4 x5 3584 inb_S65x4096_S65x512_0_3584 inb_S4096x128_S512x128_3584_0 (by omega) p q
  unfold headK
  simp only [addf_apply]
  refine (add9 hb t0 t1 t2 t3 t4 t5 t6 t7).trans ?_
  refine (chunk8 (hterm o x4 x5 p q) (x6 (ix2 (0 : Fin 1) q))).trans ?_
  rfl

end Cert.KernelIdeal.Hand

end
-- ==== Proof.KernelValue.lean ====
/-
  The kernel's result array is the network function of its arguments.

  A stream of a grid point's block is the network on its 512 row pairs (layers 1 and 2 on each of the 1024 loaded
  rows, the pairing, layers 3 and 4); the body's four stores are the four streams of the point's block, each
  covering 512 rows of the 2048-row output block; point t's output block is rows 2048·t … 2048·t + 2047 of the
  result, and the eight blocks tile it.
-/
import proofs.«141145_g11802570129985_cont_fleet_79_16_alg».proof.Proof.Gen.KernelIdeal.Value
import proofs.«141145_g11802570129985_cont_fleet_79_16_alg».proof.Proof.Payload
import proofs.«141145_g11802570129985_cont_fleet_79_16_alg».proof.Proof.BlocksW
import proofs.«141145_g11802570129985_cont_fleet_79_16_alg».proof.Proof.BlocksX
import proofs.«141145_g11802570129985_cont_fleet_79_16_alg».proof.Proof.FeatValue
import proofs.«141145_g11802570129985_cont_fleet_79_16_alg».proof.Proof.HeadValue
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Siamese

/-! ## The row functions depend only on their arguments' values -/

theorem featRow_congr {W1 W1' : Fin 32 → Fin 4096 → EReal} {b1 b1' : Fin 4096 → EReal} {W2 W2' : Fin 4096 → Fin 32 → EReal}
    {b2 b2' : Fin 32 → EReal} {x x' : Fin 32 → EReal} (h1 : W1 = W1') (h2 : b1 = b1') (h3 : W2 = W2') (h4 : b2 = b2') (h5 : x = x') :
    featRow W1 b1 W2 b2 x = featRow W1' b1' W2' b2' x' := by
  subst h1 h2 h3 h4 h5; rfl

theorem headRow_congr {W3 W3' : Fin 64 → Fin 4096 → EReal} {b3 b3' : Fin 4096 → EReal} {W4 W4' : Fin 4096 → Fin 128 → EReal}
    {b4 b4' : Fin 128 → EReal} {z z' : Fin 64 → EReal} (h1 : W3 = W3') (h2 : b3 = b3') (h3 : W4 = W4') (h4 : b4 = b4') (h5 : z = z')
    (q : Fin 128) : headRow W3 b3 W4 b4 z q = headRow W3' b3' W4' b4' z' q := by
  subst h1 h2 h3 h4 h5; rfl

theorem join_congr {a a' b b' : Fin 32 → EReal} (h1 : a = a') (h2 : b = b') : join a b = join a' b' := by
  subst h1 h2; rfl

/-! ## One stream, from what its loaded blocks hold -/

/-- If the 1024 loaded rows are rows `R p` of the first input followed by the same rows of the second, each with a
    trailing one, and the weight blocks hold the (augmented) weights, the stream's entry (p, q) is the network's
    output for row `R p`. -/
theorem stream_at (xl : Vec Ideal S1024x33 .bf16) (x1 : Vec Ideal S33x4096 .bf16) (x2 : Vec Ideal S4096x32 .bf16) (x3 : Vec Ideal S1x32 .f32)
    (x4 : Vec Ideal S65x4096 .bf16) (x5 : Vec Ideal S4096x128 .bf16) (x6 : Vec Ideal S1x128 .f32)
    (st nst : A2 16384 32) (W1 : A2 32 4096) (b1 : A1 4096) (W2 : A2 4096 32) (b2 : A1 32) (W3 : A2 64 4096) (b3 : A1 4096)
    (W4 : A2 4096 128) (b4 : A1 128) (R : Fin 512 → Fin 16384)
    (hst : ∀ (p : Fin 512) (i : Fin 32), xl (ix2 (⟨p.val, by have := p.isLt; omega⟩ : Fin 1024) i.castSucc) = st (ix2 (R p) i))
    (hnst : ∀ (p : Fin 512) (i : Fin 32), xl (ix2 (⟨512 + p.val, by have := p.isLt; omega⟩ : Fin 1024) i.castSucc) = nst (ix2 (R p) i))
    (hone : ∀ r : Fin 1024, xl (ix2 r (Fin.last 32)) = 1)
    (hW1 : ∀ (i : Fin 32) (k : Fin 4096), x1 (ix2 i.castSucc k) = W1 (ix2 i k)) (hb1 : ∀ k : Fin 4096, x1 (ix2 (Fin.last 32) k) = b1 (ix1 k))
    (hW2 : ∀ (k : Fin 4096) (j : Fin 32), x2 (ix2 k j) = W2 (ix2 k j)) (hb2 : ∀ j : Fin 32, x3 (ix2 (0 : Fin 1) j) = b2 (ix1 j))
    (hW3 : ∀ (e : Fin 64) (k : Fin 4096), x4 (ix2 e.castSucc k) = W3 (ix2 e k)) (hb3 : ∀ k : Fin 4096, x4 (ix2 (Fin.last 64) k) = b3 (ix1 k))
    (hW4 : ∀ (k : Fin 4096) (j : Fin 128), x5 (ix2 k j) = W4 (ix2 k j)) (hb4 : ∀ j : Fin 128, x6 (ix2 (0 : Fin 1) j) = b4 (ix1 j))
    (p : Fin 512) (q : Fin 128) :
    streamOf (F := Ideal) xl x1 x2 x3 x4 x5 x6 (ix2 p q) = Gat st nst W1 b1 W2 b2 W3 b3 W4 b4 (R p) q := by
  unfold streamOf
  refine (headK_apply (featK (F := Ideal) xl x1 x2 x3) x4 x5 x6 p q).trans ?_
  unfold Gat netRow
  have feat : ∀ (r : Fin 1024) (x : Fin 32 → EReal), (fun i : Fin 32 => xl (ix2 r i.castSucc)) = x →
      (fun a : Fin 32 => featK (F := Ideal) xl x1 x2 x3 (ix2 r a))
        = featRow (fun a k => W1 (ix2 a k)) (fun k => b1 (ix1 k)) (fun k a => W2 (ix2 k a)) (fun a => b2 (ix1 a)) x := by
    intro r x hx
    funext a
    refine (featK_apply xl x1 x2 x3 hone r a).trans ?_
    exact congrFun (featRow_congr (funext fun i => funext fun k => hW1 i k) (funext hb1) (funext fun k => funext fun j => hW2 k j) (funext hb2) hx) a
  exact headRow_congr (funext fun e => funext fun k => hW3 e k) (funext hb3) (funext fun k => funext fun j => hW4 k j) (funext hb4)
    (join_congr (feat _ _ (funext fun i => hst p i)) (feat _ _ (funext fun i => hnst p i))) q

/-! ## The four streams of a grid point's block -/

variable (m : (ℓ : Loc nD τ sig) → Buf (Elt Ideal) ℓ) (ρ : Dev nD → PrngReg)

/-- The network function of core `c`'s ten argument arrays. -/
abbrev Gk (c : Dev nD) : A2 16384 128 :=
  G (argSt m c) (argNst m c) (argW1 m c) (argB1 m c) (argW2 m c) (argB2 m c) (argW3 m c) (argB3 m c) (argW4 m c) (argB4 m c)

/-- The network's output at row `R`, column `j`, the two given as naturals. -/
def GkN (c : Dev nD) (R : Nat) (hR : R < 16384) (j : Nat) (hj : j < 128) : EReal :=
  Gat (argSt m c) (argNst m c) (argW1 m c) (argB1 m c) (argW2 m c) (argB2 m c) (argW3 m c) (argB3 m c) (argW4 m c) (argB4 m c) ⟨R, hR⟩ ⟨j, hj⟩

theorem GkN_congr (c : Dev nD) {R R' j j' : Nat} (hR : R < 16384) (hj : j < 128) (eR : R = R') (ej : j = j') :
    GkN m c R hR j hj = GkN m c R' (eR ▸ hR) j' (ej ▸ hj) := by
  subst eR ej; rfl

/-- Loading 1024 rows from row `off` of the input block reads those rows. -/
theorem ld_rows (X : Vec Ideal S4096x33 .bf16) (off : Nat) (inb : ∀ a, (![off, 0] : Fin 2 → Nat) a + S1024x33.size a ≤ S4096x33.size a)
    (h : off + 1024 ≤ 4096) (r : Fin 1024) (i : Fin 33) :
    View.ld X (Rect.unit (s := S4096x33) ![off, 0] S1024x33.size inb) (ix2 r i) = X (ix2 (⟨off + r.val, by have := r.isLt; omega⟩ : Fin 4096) i) := by
  show X ((Rect.unit (s := S4096x33) ![off, 0] S1024x33.size inb).idx (ix2 r i)) = _
  refine congrArg X (funext fun a => Fin.ext ?_)
  match a with
  | ⟨0, _⟩ => show off + 1 * r.val = off + r.val; omega
  | ⟨1, _⟩ => show 0 + 1 * i.val = i.val; omega

/-- Stream `s` of the block at point `t` (the 1024 rows from row 1024·s), at entry (p, q), is the network's output
    for row 2048·t + 512·s + p. -/
theorem stream_blk (c : Dev nD) (t : Fin cfg0.N) (s : Fin 4) (inb : ∀ a, (![1024 * s.val, 0] : Fin 2 → Nat) a + S1024x33.size a ≤ S4096x33.size a)
    (p : Fin 512) (q : Fin 128) :
    streamOf (F := Ideal) (View.ld (iblk m c 0 t : Vec Ideal S4096x33 .bf16) (Rect.unit (s := S4096x33) ![1024 * s.val, 0] S1024x33.size inb))
        (iblk m c 1 t) (iblk m c 2 t) (iblk m c 3 t) (iblk m c 4 t) (iblk m c 5 t) (iblk m c 6 t) (ix2 p q)
      = GkN m c (2048 * t.val + 512 * s.val + p.val) (by have := tlt t; have := s.isLt; have := p.isLt; omega) q.val q.isLt := by
  have hs : 1024 * s.val + 1024 ≤ 4096 := by have := s.isLt; omega
  refine stream_at _ (iblk m c 1 t) (iblk m c 2 t) (iblk m c 3 t) (iblk m c 4 t) (iblk m c 5 t) (iblk m c 6 t)
    (argSt m c) (argNst m c) (argW1 m c) (argB1 m c) (argW2 m c) (argB2 m c) (argW3 m c) (argB3 m c) (argW4 m c) (argB4 m c)
    (fun p => ⟨2048 * t.val + 512 * s.val + p.val, by have := tlt t; have := s.isLt; have := p.isLt; omega⟩)
    (fun p i => ?_) (fun p i => ?_) (fun r => ?_)
    (blk_w1 m c t) (blk_b1 m c t) (blk_w2 m c t) (blk_b2 m c t) (blk_w3 m c t) (blk_b3 m c t) (blk_w4 m c t) (blk_b4 m c t) p q
  · refine (ld_rows _ _ inb hs _ _).trans ?_
    exact blk_x_st m c t s p i
  · refine (ld_rows _ _ inb hs _ _).trans ?_
    have e : (⟨1024 * s.val + (⟨512 + p.val, by have := p.isLt; omega⟩ : Fin 1024).val, by have := s.isLt; have := p.isLt; show 1024 * s.val + (512 + p.val) < 4096; omega⟩ : Fin 4096)
        = ⟨1024 * s.val + 512 + p.val, by have := s.isLt; have := p.isLt; omega⟩ := Fin.ext (by show 1024 * s.val + (512 + p.val) = 1024 * s.val + 512 + p.val; omega)
    rw [e]
    exact blk_x_nst m c t s p i
  · refine (ld_rows _ _ inb hs _ _).trans ?_
    exact blk_x_one m c t _

/-! ## What a grid point stores, and the result array -/

/-- The output block of point `t` as one function of the entry: the network's output for row 2048·t + (the entry's row). -/
def blockFn (c : Dev nD) (t : Fin cfg0.N) : Vec Ideal S2048x128 .f32 := fun y =>
  GkN m c (2048 * t.val + (y 0).val) (by have := tlt t; have h : (y 0).val < 2048 := (y 0).isLt; omega) (y 1).val (y 1).isLt

/-- The four stores are the four 512-row bands of that function. -/
theorem out_block (c : Dev nD) (t : Fin cfg0.N) :
    out0_7 (iblk m c 0 t) (iblk m c 1 t) (iblk m c 2 t) (iblk m c 3 t) (iblk m c 4 t) (iblk m c 5 t) (iblk m c 6 t) = blockFn m c t := by
  refine (out_eq_streams (iblk m c 0 t) (iblk m c 1 t) (iblk m c 2 t) (iblk m c 3 t) (iblk m c 4 t) (iblk m c 5 t) (iblk m c 6 t)).trans ?_
  funext y
  refine View.canon_apply_of_pieces (blockFn m c t) _ ?_ y (cover0_7 _ _ _ _ y)
  intro pc hpc
  simp only [List.mem_cons, List.not_mem_nil, or_false] at hpc
  rcases hpc with rfl | rfl | rfl | rfl
  · intro x
    obtain ⟨p, q, rfl⟩ : ∃ (p : Fin 512) (q : Fin 128), x = ix2 p q := ⟨x 0, x 1, eq_ix2 (n0 := 512) (n1 := 128) x⟩
    refine (stream_blk m c t 3 inb_S4096x33_S1024x33_3072_0 p q).trans ?_
    show _ = GkN m c (2048 * t.val + (1536 + 1 * p.val)) _ (0 + 1 * q.val) _
    exact GkN_congr m c _ _ (by show 2048 * t.val + 512 * 3 + p.val = _; omega) (by omega)
  · intro x
    obtain ⟨p, q, rfl⟩ : ∃ (p : Fin 512) (q : Fin 128), x = ix2 p q := ⟨x 0, x 1, eq_ix2 (n0 := 512) (n1 := 128) x⟩
    refine (stream_blk m c t 2 inb_S4096x33_S1024x33_2048_0 p q).trans ?_
    show _ = GkN m c (2048 * t.val + (1024 + 1 * p.val)) _ (0 + 1 * q.val) _
    exact GkN_congr m c _ _ (by show 2048 * t.val + 512 * 2 + p.val = _; omega) (by omega)
  · intro x
    obtain ⟨p, q, rfl⟩ : ∃ (p : Fin 512) (q : Fin 128), x = ix2 p q := ⟨x 0, x 1, eq_ix2 (n0 := 512) (n1 := 128) x⟩
    refine (stream_blk m c t 1 inb_S4096x33_S1024x33_1024_0 p q).trans ?_
    show _ = GkN m c (2048 * t.val + (512 + 1 * p.val)) _ (0 + 1 * q.val) _
    exact GkN_congr m c _ _ (by show 2048 * t.val + 512 * 1 + p.val = _; omega) (by omega)
  · intro x
    obtain ⟨p, q, rfl⟩ : ∃ (p : Fin 512) (q : Fin 128), x = ix2 p q := ⟨x 0, x 1, eq_ix2 (n0 := 512) (n1 := 128) x⟩
    refine (stream_blk m c t 0 inb_S4096x33_S1024x33_0_0 p q).trans ?_
    show _ = GkN m c (2048 * t.val + (0 + 1 * p.val)) _ (0 + 1 * q.val) _
    exact GkN_congr m c _ _ (by show 2048 * t.val + 512 * 0 + p.val = _; omega) (by omega)

/-- The output window's block index at point `t` is (t, 0), decided over the eight points. -/
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- What point `t` writes back is block `t` of the network function of the arguments. -/
theorem flushed_eq (c : Dev nD) (t : Fin cfg0.N) :
    (dats m 0 c).flushed 7 t = ((cfg0.win 7).blk t).view.read (Elt Ideal) (Gk m c) := by
  rw [Cert.KernelIdeal.Value.flushed7, out_block]
  funext y
  obtain ⟨e0, e1⟩ := idx7 t
  show blockFn m c t y = Gk m c (((cfg0.win 7).blk t).view.emb y)
  show GkN m c (2048 * t.val + (y 0).val) _ (y 1).val _
      = GkN m c (win0_7.index t (0 : Fin 2) * 2048 + 1 * (y 0).val) _ (win0_7.index t (1 : Fin 2) * 128 + 1 * (y 1).val) _
  exact GkN_congr m c _ _ (by rw [e0]; omega) (by rw [e1]; omega)

/-- An index of the result is in point `t`'s block iff each coordinate is in the block's range on its axis. -/
theorem mem_blk7 (t : Fin cfg0.N) (i : S16384x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v19).slice (win0_7.rect t)).set ↔ _
  rw [View.set_slice_whole, Rect.mem_set_unit]
  exact Iff.rfl

/-- Every index of the result is in the block of the point its row falls in. -/
theorem cover7 (i : S16384x128.Idx) : ∃ t : Fin cfg0.N, (cfg0.win 7).flush t = true ∧ i ∈ ((cfg0.win 7).blk t).view.set := by
  have hi0 : (i 0).val < 16384 := (i 0).isLt
  have hi1 : (i 1).val < 128 := (i 1).isLt
  have hN : cfg0.N = 8 := N_0
  refine ⟨⟨(i 0).val / 2048, by rw [hN]; omega⟩, flush0_7 _, ?_⟩
  rw [mem_blk7]
  obtain ⟨e0, e1⟩ := idx7 ⟨(i 0).val / 2048, by rw [hN]; omega⟩
  intro a
  match a with
  | ⟨0, _⟩ =>
    show win0_7.index _ (0 : Fin 2) * 2048 ≤ (i 0).val ∧ (i 0).val < win0_7.index _ (0 : Fin 2) * 2048 + 2048
    rw [e0]; show (i 0).val / 2048 * 2048 ≤ (i 0).val ∧ (i 0).val < (i 0).val / 2048 * 2048 + 2048; omega
  | ⟨1, _⟩ =>
    show win0_7.index _ (1 : Fin 2) * 128 ≤ (i 1).val ∧ (i 1).val < win0_7.index _ (1 : Fin 2) * 128 + 128
    rw [e1]; omega

/-- The result array after the run is the network function of the arguments. -/
theorem final7 (c : Dev nD) : (dats m 0 c).arrAt 7 cfg0.N = Gk m c :=
  (dats m 0 c).arrAt_eq_of_cover 7 (Gk m c) (fun t _ => flushed_eq m c t) cover7

/-- The run, read: the result array at the network function of the arguments, the arguments unchanged. -/
theorem run : θ_run defs (onTc (τ := τ) (main (F := Ideal))) ⟨m, fun _ => 0, ρ⟩ fun r => ∀ c : Dev nD,
      r.2.mem ((c : Thread nD τ).loc main_v19) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final7 m c), (h c).2⟩) (Cert.KernelIdeal.Value.run_blocks m ρ)

end Cert.KernelIdeal.Hand

end
-- ==== Proof.RefValue.lean ====
/-
  The reference's result, read one operation at a time, is the network function `G` of its ten arguments:
  each dot_general is the sum over its contracted axis, each bias is broadcast along the rows, each relu is the
  maximum with zero, and the concatenation puts the first branch's 32 features before the second's.
-/
import proofs.«141145_g11802570129985_cont_fleet_79_16_alg».proof.Proof.Gen.ReferenceIdeal.Read
import proofs.«141145_g11802570129985_cont_fleet_79_16_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.SL.Sem
open Idealize.ShloMosaic.ValueIdx Cert.Siamese

namespace Aux

/-- Entry (R, k) of the first branch's hidden layer: the row of the first input times column k of the first weights, plus the bias, cut at zero. -/
theorem hid_st (x0 : (⟨S16384x32, .f32⟩ : BufTy).Contents (Elt Ideal)) (x2 : (⟨S32x4096, .f32⟩ : BufTy).Contents (Elt Ideal)) (x3 : (⟨S4096, .f32⟩ : BufTy).Contents (Elt Ideal))
    (R : Fin 16384) (k : Fin 4096) :
    val_main_v4 (F := Ideal) x0 x2 x3 (ix2 R k) = max (∑ i : Fin 32, x0 (ix2 R i) * x2 (ix2 i k) + x3 (ix1 k)) 0 := by
  rw [val_main_v4_apply, val_main_v3_apply, val_main_v0_apply, val_main_v2_apply, val_main_v1_apply,
    val_main_call0_v0_apply, val_main_call0_cst_apply]
  have el : ∀ i : Fin 32, lidx_main_v0 (ix2 R k) i = ix2 R i := fun i => funext fun a => Fin.ext (by
    match a with
    | ⟨0, _⟩ => rfl
    | ⟨1, _⟩ => rfl)
  have er : ∀ i : Fin 32, ridx_main_v0 (ix2 R k) i = ix2 i k := fun i => funext fun a => Fin.ext (by
    match a with
    | ⟨0, _⟩ => rfl
    | ⟨1, _⟩ => rfl)
  have eb : idx_main_v1 (idx_main_v2 (ix2 R k)) = ix1 k := funext fun a => Fin.ext (by
    match a with
    | ⟨0, _⟩ => rfl)
  rw [eb, Ideal.maximumf_def, Ideal.addf_def, Ideal.ofBits_def, zero_f32]
  refine congrArg (fun s => max (s + x3 (ix1 k)) 0) (Finset.sum_congr rfl fun i _ => ?_)
  rw [el, er]

/-- Entry (R, k) of the second branch's hidden layer: the row of the second input times column k of the first weights, plus the bias, cut at zero. -/
theorem hid_nst (x1 : (⟨S16384x32, .f32⟩ : BufTy).Contents (Elt Ideal)) (x2 : (⟨S32x4096, .f32⟩ : BufTy).Contents (Elt Ideal)) (x3 : (⟨S4096, .f32⟩ : BufTy).Contents (Elt Ideal))
    (R : Fin 16384) (k : Fin 4096) :
    val_main_v14 (F := Ideal) x1 x2 x3 (ix2 R k) = max (∑ i : Fin 32, x1 (ix2 R i) * x2 (ix2 i k) + x3 (ix1 k)) 0 := by
  rw [val_main_v14_apply, val_main_v13_apply, val_main_v10_apply, val_main_v12_apply, val_main_v11_apply,
    val_main_call2_v0_apply, val_main_call2_cst_apply]
  have el : ∀ i : Fin 32, lidx_main_v10 (ix2 R k) i = ix2 R i := fun i => funext fun a => Fin.ext (by
    match a with
    | ⟨0, _⟩ => rfl
    | ⟨1, _⟩ => rfl)
  have er : ∀ i : Fin 32, ridx_main_v10 (ix2 R k) i = ix2 i k := fun i => funext fun a => Fin.ext (by
    match a with
    | ⟨0, _⟩ => rfl
    | ⟨1, _⟩ => rfl)
  have eb : idx_main_v11 (idx_main_v12 (ix2 R k)) = ix1 k := funext fun a => Fin.ext (by
    match a with
    | ⟨0, _⟩ => rfl)
  rw [eb, Ideal.maximumf_def, Ideal.addf_def, Ideal.ofBits_def, zero_f32]
  refine congrArg (fun s => max (s + x3 (ix1 k)) 0) (Finset.sum_congr rfl fun i _ => ?_)
  rw [el, er]

/-- Entry (R, a) of the first branch's features is feature a of row R of the first input. -/
theorem feat_st (x0 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal))
    (R : Fin 16384) (a : Fin 32) :
    val_main_v9 (F := Ideal) x0 x2 x3 x4 x5 (ix2 R a)
      = featRow (fun a k => x2 (ix2 a k)) (fun k => x3 (ix1 k)) (fun k a => x4 (ix2 k a)) (fun a => x5 (ix1 a))
          (fun a => x0 (ix2 R a)) a := by
  rw [val_main_v9_apply, val_main_v8_apply, val_main_v5_apply, val_main_v7_apply, val_main_v6_apply,
    val_main_call1_v0_apply, val_main_call1_cst_apply]
  have el : ∀ k : Fin 4096, lidx_main_v5 (ix2 R a) k = ix2 R k := fun k => funext fun a => Fin.ext (by
    match a with
    | ⟨0, _⟩ => rfl
    | ⟨1, _⟩ => rfl)
  have er : ∀ k : Fin 4096, ridx_main_v5 (ix2 R a) k = ix2 k a := fun k => funext fun a => Fin.ext (by
    match a with
    | ⟨0, _⟩ => rfl
    | ⟨1, _⟩ => rfl)
  have eb : idx_main_v6 (idx_main_v7 (ix2 R a)) = ix1 a := funext fun a => Fin.ext (by
    match a with
    | ⟨0, _⟩ => rfl)
  rw [eb, Ideal.maximumf_def, Ideal.addf_def, Ideal.ofBits_def, zero_f32]
  refine congrArg (fun s => max (s + x5 (ix1 a)) 0) (Finset.sum_congr rfl fun k _ => ?_)
  rw [el, er, hid_st]

/-- Entry (R, a) of the second branch's features is feature a of row R of the second input. -/
theorem feat_nst (x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal))
    (R : Fin 16384) (a : Fin 32) :
    val_main_v19 (F := Ideal) x1 x2 x3 x4 x5 (ix2 R a)
      = featRow (fun a k => x2 (ix2 a k)) (fun k => x3 (ix1 k)) (fun k a => x4 (ix2 k a)) (fun a => x5 (ix1 a))
          (fun a => x1 (ix2 R a)) a := by
  rw [val_main_v19_apply, val_main_v18_apply, val_main_v15_apply, val_main_v17_apply, val_main_v16_apply,
    val_main_call3_v0_apply, val_main_call3_cst_apply]
  have el : ∀ k : Fin 4096, lidx_main_v15 (ix2 R a) k = ix2 R k := fun k => funext fun a => Fin.ext (by
    match a with
    | ⟨0, _⟩ => rfl
    | ⟨1, _⟩ => rfl)
  have er : ∀ k : Fin 4096, ridx_main_v15 (ix2 R a) k = ix2 k a := fun k => funext fun a => Fin.ext (by
    match a with
    | ⟨0, _⟩ => rfl
    | ⟨1, _⟩ => rfl)
  have eb : idx_main_v16 (idx_main_v17 (ix2 R a)) = ix1 a := funext fun a => Fin.ext (by
    match a with
    | ⟨0, _⟩ => rfl)
  rw [eb, Ideal.maximumf_def, Ideal.addf_def, Ideal.ofBits_def, zero_f32]
  refine congrArg (fun s => max (s + x5 (ix1 a)) 0) (Finset.sum_congr rfl fun k _ => ?_)
  rw [el, er, hid_nst]

/-- Entry (R, e) of two 32-column arrays set side by side is entry e of their rows R joined. -/
theorem cat (y1 y2 : (⟨S16384x32, .f32⟩ : BufTy).Contents (Elt Ideal)) (R : Fin 16384) (e : Fin 64) :
    concatenate S16384x64 1 [⟨S16384x32, y1⟩, ⟨S16384x32, y2⟩] concatenates_S16384x32_S16384x32_S16384x64_d1 (ix2 R e)
      = join (fun a => y1 (ix2 R a)) (fun a => y2 (ix2 R a)) e := by
  unfold join
  by_cases h : e.val < 32
  · rw [dif_pos h]
    exact concatenate_pair_apply_left (1 : Fin S16384x64.rank) y1 y2 _ (ix2 R e) rfl (ix2 R ⟨e.val, h⟩) (fun b => by
      match b with
      | ⟨0, _⟩ => rfl
      | ⟨1, _⟩ => rfl)
  · rw [dif_neg h]
    exact concatenate_pair_apply_right (1 : Fin S16384x64.rank) y1 y2 _ (ix2 R e) rfl rfl
      (ix2 R ⟨e.val - 32, by have := e.isLt; omega⟩) (fun b hb => by
      match b, hb with
      | ⟨0, _⟩, _ => rfl
      | ⟨1, _⟩, hb => exact absurd rfl hb) (by
      show (e.val - 32) + 32 = e.val
      omega)

/-- Entry (R, e) of the concatenated features is entry e of the two branches' feature rows joined. -/
theorem cat20 (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (R : Fin 16384) (e : Fin 64) :
    val_main_v20 (F := Ideal) x0 x1 x2 x3 x4 x5 (ix2 R e)
      = join (fun a => val_main_v9 (F := Ideal) x0 x2 x3 x4 x5 (ix2 R a)) (fun a => val_main_v19 (F := Ideal) x1 x2 x3 x4 x5 (ix2 R a)) e :=
  cat (val_main_v9 (F := Ideal) x0 x2 x3 x4 x5) (val_main_v19 (F := Ideal) x1 x2 x3 x4 x5) R e

/-- Entry (R, k) of the third hidden layer: the joined row times column k of the third weights, plus the bias, cut at zero. -/
theorem hid3 (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (R : Fin 16384) (k : Fin 4096) :
    val_main_v25 (F := Ideal) x0 x1 x2 x3 x4 x5 x6 x7 (ix2 R k)
      = max (∑ e : Fin 64, val_main_v20 (F := Ideal) x0 x1 x2 x3 x4 x5 (ix2 R e) * x6 (ix2 e k) + x7 (ix1 k)) 0 := by
  rw [val_main_v25_apply, val_main_v24_apply, val_main_v21_apply, val_main_v23_apply, val_main_v22_apply,
    val_main_call4_v0_apply, val_main_call4_cst_apply]
  have el : ∀ e : Fin 64, lidx_main_v21 (ix2 R k) e = ix2 R e := fun e => funext fun a => Fin.ext (by
    match a with
    | ⟨0, _⟩ => rfl
    | ⟨1, _⟩ => rfl)
  have er : ∀ e : Fin 64, ridx_main_v21 (ix2 R k) e = ix2 e k := fun e => funext fun a => Fin.ext (by
    match a with
    | ⟨0, _⟩ => rfl
    | ⟨1, _⟩ => rfl)
  have eb : idx_main_v22 (idx_main_v23 (ix2 R k)) = ix1 k := funext fun a => Fin.ext (by
    match a with
    | ⟨0, _⟩ => rfl)
  rw [eb, Ideal.maximumf_def, Ideal.addf_def, Ideal.ofBits_def, zero_f32]
  refine congrArg (fun s => max (s + x7 (ix1 k)) 0) (Finset.sum_congr rfl fun e _ => ?_)
  rw [el, er]

/-- Entry (R, j) of the result: the third hidden row times column j of the fourth weights, plus the bias. -/
theorem out (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (x8 : (⟨S4096x128, .f32⟩ : BufTy).Contents (Elt Ideal)) (x9 : (⟨S128, .f32⟩ : BufTy).Contents (Elt Ideal)) (R : Fin 16384) (j : Fin 128) :
    val_main_v29 (F := Ideal) x0 x1 x2 x3 x4 x5 x6 x7 x8 x9 (ix2 R j)
      = ∑ k : Fin 4096, val_main_v25 (F := Ideal) x0 x1 x2 x3 x4 x5 x6 x7 (ix2 R k) * x8 (ix2 k j) + x9 (ix1 j) := by
  rw [val_main_v29_apply, val_main_v26_apply, val_main_v28_apply, val_main_v27_apply]
  have el : ∀ k : Fin 4096, lidx_main_v26 (ix2 R j) k = ix2 R k := fun k => funext fun a => Fin.ext (by
    match a with
    | ⟨0, _⟩ => rfl
    | ⟨1, _⟩ => rfl)
  have er : ∀ k : Fin 4096, ridx_main_v26 (ix2 R j) k = ix2 k j := fun k => funext fun a => Fin.ext (by
    match a with
    | ⟨0, _⟩ => rfl
    | ⟨1, _⟩ => rfl)
  have eb : idx_main_v27 (idx_main_v28 (ix2 R j)) = ix1 j := funext fun a => Fin.ext (by
    match a with
    | ⟨0, _⟩ => rfl)
  rw [eb, Ideal.addf_def]
  refine congrArg (fun s => s + x9 (ix1 j)) (Finset.sum_congr rfl fun k _ => ?_)
  rw [el, er]

/-- Entry (R, j) of the reference's result is the network's output j on rows R of the two inputs. -/
theorem at_ix2 (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (x8 : (⟨S4096x128, .f32⟩ : BufTy).Contents (Elt Ideal)) (x9 : (⟨S128, .f32⟩ : BufTy).Contents (Elt Ideal)) (R : Fin 16384) (j : Fin 128) :
    val_main_v29 (F := Ideal) x0 x1 x2 x3 x4 x5 x6 x7 x8 x9 (ix2 R j) = Gat x0 x1 x2 x3 x4 x5 x6 x7 x8 x9 R j := by
  have h1 : (fun a => val_main_v9 (F := Ideal) x0 x2 x3 x4 x5 (ix2 R a))
      = featRow (fun a k => x2 (ix2 a k)) (fun k => x3 (ix1 k)) (fun k a => x4 (ix2 k a)) (fun a => x5 (ix1 a))
          (fun a => x0 (ix2 R a)) := funext fun a => feat_st x0 x2 x3 x4 x5 R a
  have h2 : (fun a => val_main_v19 (F := Ideal) x1 x2 x3 x4 x5 (ix2 R a))
      = featRow (fun a k => x2 (ix2 a k)) (fun k => x3 (ix1 k)) (fun k a => x4 (ix2 k a)) (fun a => x5 (ix1 a))
          (fun a => x1 (ix2 R a)) := funext fun a => feat_nst x1 x2 x3 x4 x5 R a
  rw [out]
  unfold Gat netRow headRow
  refine congrArg (fun s => s + x9 (ix1 j)) (Finset.sum_congr rfl fun k _ => ?_)
  rw [hid3]
  refine congrArg (fun s => max (s + x7 (ix1 k)) 0 * x8 (ix2 k j)) (Finset.sum_congr rfl fun e _ => ?_)
  rw [cat20, h1, h2]

end Aux

/-- The reference's last stage is `G` of the arguments. -/
theorem ref_eq (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (x8 : (⟨S4096x128, .f32⟩ : BufTy).Contents (Elt Ideal)) (x9 : (⟨S128, .f32⟩ : BufTy).Contents (Elt Ideal)) :
    val_main_v29 (F := Ideal) x0 x1 x2 x3 x4 x5 x6 x7 x8 x9 = G x0 x1 x2 x3 x4 x5 x6 x7 x8 x9 := by
  funext i
  obtain ⟨R, j, rfl⟩ : ∃ (R : Fin 16384) (j : Fin 128), i = ix2 R j := ⟨i 0, i 1, eq_ix2 i⟩
  rw [G_ix2]
  exact Aux.at_ix2 x0 x1 x2 x3 x4 x5 x6 x7 x8 x9 R j

end Cert.ReferenceIdeal.RefValue

end
-- ==== Proof.lean ====
/-
  The kernel is a fused four-layer network on pairs of rows: relu (relu (x·W1 + b1)·W2 + b2) on a row of each of the
  two inputs, the two 32-feature results set side by side, then relu (z·W3 + b3)·W4 + b4. It folds each first-
  and third-layer bias into its matmul through an appended column of ones, visits the hidden width 4096 in eight
  chunks of 512 whose contributions it adds one after the other onto the next layer's bias, and works on the batch
  in blocks whose rows interleave the two inputs. Over the extended reals these are re-arrangements of the same
  sums (one is a unit of the product; addition is commutative and associative), so the kernel's result array and
  the reference's are one function `G` of the ten arguments: no finiteness of the inputs is used.
  The three frames are the generated frame runs (the reference's is its generated run with the result dropped);
  the idealization rewrote nothing, so `preserves` is trivial.
-/
import proofs.«141145_g11802570129985_cont_fleet_79_16_alg».proof.Defs
import proofs.«141145_g11802570129985_cont_fleet_79_16_alg».proof.Proof.Gen.Kernel
import proofs.«141145_g11802570129985_cont_fleet_79_16_alg».proof.Proof.Gen.Kernel.Skeleton
import proofs.«141145_g11802570129985_cont_fleet_79_16_alg».proof.Proof.Gen.Kernel.Launch
import proofs.«141145_g11802570129985_cont_fleet_79_16_alg».proof.Proof.Gen.Kernel.Points
import proofs.«141145_g11802570129985_cont_fleet_79_16_alg».proof.Proof.Gen.Kernel.Frame
import proofs.«141145_g11802570129985_cont_fleet_79_16_alg».proof.Proof.Gen.KernelIdeal
import proofs.«141145_g11802570129985_cont_fleet_79_16_alg».proof.Proof.Gen.KernelIdeal.Skeleton
import proofs.«141145_g11802570129985_cont_fleet_79_16_alg».proof.Proof.Gen.KernelIdeal.Launch
import proofs.«141145_g11802570129985_cont_fleet_79_16_alg».proof.Proof.Gen.KernelIdeal.Points
import proofs.«141145_g11802570129985_cont_fleet_79_16_alg».proof.Proof.Gen.KernelIdeal.Frame
import proofs.«141145_g11802570129985_cont_fleet_79_16_alg».proof.Proof.Gen.ReferenceIdeal
import proofs.«141145_g11802570129985_cont_fleet_79_16_alg».proof.Proof.Gen.Pre_finite_inputs
import proofs.«141145_g11802570129985_cont_fleet_79_16_alg».proof.Proof.Gen.KernelIdeal.Value
import proofs.«141145_g11802570129985_cont_fleet_79_16_alg».proof.Proof.Gen.ReferenceIdeal.Run
import proofs.«141145_g11802570129985_cont_fleet_79_16_alg».proof.Proof.Gen.ReferenceIdeal.Read
import proofs.«141145_g11802570129985_cont_fleet_79_16_alg».proof.Proof.KernelValue
import proofs.«141145_g11802570129985_cont_fleet_79_16_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the network function `G` of arguments that agree. -/
theorem algebraic : Cert.algebraic_KernelIdeal_ReferenceIdeal := by
  intro m ρ m' ρ' _ hagree
  refine ⟨fun c => Cert.KernelIdeal.Hand.Gk m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq]
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
